-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64 : Shape := ⟨3, ![16, 128, 64]⟩
abbrev S16x128x8 : Shape := ⟨3, ![16, 128, 8]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16x128x64 : S_.BroadcastsInDim S16x128x64 (![] : Fin 0 → Fin S16x128x64.rank)
  reducesTo_S16x128x64_S_d0_1_2 : S16x128x64.ReducesTo [0, 1, 2] S_
  h_S_ : 0 < S_.numel
  bcast_S_S16x128x8 : S_.BroadcastsInDim S16x128x8 (![] : Fin 0 → Fin S16x128x8.rank)
  reducesTo_S16x128x8_S_d0_1_2 : S16x128x8.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16x128x64 .f32) (main_arg1 : FVec F S16x128x8 .f32) (main_arg2 : FVec F S128x256 .f32) (main_arg3 : FVec F S256 .f32) (main_arg4 : FVec F S256x1 .f32) (main_arg5 : FVec F S1 .f32) : IVec S_ 1 :=
  let main_v0 : FVec F S16x128x64 .f32 := Host.absf main_arg0
  let main_cst : FVec F S_ .f32 := constant S_ .f32 0x7F800000#32
  let main_v1 : FVec F S16x128x64 .f32 := broadcastInDim S16x128x64 ![] bcast_S_S16x128x64 main_cst
  let main_v2 : IVec S16x128x64 1 := cmpf .olt main_v0 main_v1
  let main_c : IVec S_ 1 := constantI S_ 1 1#1
  let main_v3 : IVec S_ 1 := (fun x v => Host.reduce IntOp.andi x v reducesTo_S16x128x64_S_d0_1_2 h_S_) main_v2 main_c
  let main_v4 : FVec F S16x128x8 .f32 := Host.absf main_arg1
  let main_cst_0 : FVec F S_ .f32 := constant S_ .f32 0x7F800000#32
  let main_v5 : FVec F S16x128x8 .f32 := broadcastInDim S16x128x8 ![] bcast_S_S16x128x8 main_cst_0
  let main_v6 : IVec S16x128x8 1 := cmpf .olt main_v4 main_v5
  let main_c_1 : IVec S_ 1 := constantI S_ 1 1#1
  let main_v7 : IVec S_ 1 := (fun x v => Host.reduce IntOp.andi x v reducesTo_S16x128x8_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x128x64 : Shape := ⟨3, ![16, 128, 64]⟩
abbrev S16x128x8 : Shape := ⟨3, ![16, 128, 8]⟩
abbrev S128x256 : Shape := ⟨2, ![128, 256]⟩
abbrev S256 : Shape := ⟨1, ![256]⟩
abbrev S256x1 : Shape := ⟨2, ![256, 1]⟩
abbrev S1 : Shape := ⟨1, ![1]⟩
abbrev S64x256 : Shape := ⟨2, ![64, 256]⟩
abbrev S1x256 : Shape := ⟨2, ![1, 256]⟩
abbrev S1x1 : Shape := ⟨2, ![1, 1]⟩
abbrev S16x128x128 : Shape := ⟨3, ![16, 128, 128]⟩
abbrev S1x128x64 : Shape := ⟨3, ![1, 128, 64]⟩
abbrev S64x128 : Shape := ⟨2, ![64, 128]⟩
abbrev S1x128 : Shape := ⟨2, ![1, 128]⟩
abbrev S1x128x128 : Shape := ⟨3, ![1, 128, 128]⟩
abbrev S128x64 : Shape := ⟨2, ![128, 64]⟩
abbrev S128x128 : Shape := ⟨2, ![128, 128]⟩
abbrev S1x1x128 : Shape := ⟨3, ![1, 1, 128]⟩
abbrev S128x1x128 : Shape := ⟨3, ![128, 1, 128]⟩
abbrev S128x128x128 : Shape := ⟨3, ![128, 128, 128]⟩
abbrev S127 : Shape := ⟨1, ![127]⟩
abbrev S128 : Shape := ⟨1, ![128]⟩
abbrev S1x127 : Shape := ⟨2, ![1, 127]⟩
abbrev S128x1 : Shape := ⟨2, ![128, 1]⟩
abbrev S128x127 : Shape := ⟨2, ![128, 127]⟩
abbrev S1x128x127 : Shape := ⟨3, ![1, 128, 127]⟩
abbrev S16x128x127 : Shape := ⟨3, ![16, 128, 127]⟩
abbrev S_ : Shape := ⟨0, ![]⟩
abbrev S16x128x127x1 : Shape := ⟨4, ![16, 128, 127, 1]⟩
abbrev S1x1x1x1 : Shape := ⟨4, ![1, 1, 1, 1]⟩

abbrev nBuf : Space → Nat
  | .hbm => 47
  | .vmem => 13
  | .smem => 0
  | _ => 0

abbrev bufTy : (tb : Table) → Fin (tcTables nBuf tb) → BufTy
  | .hbm, ⟨0, _⟩ => ⟨S16x128x64, .f32⟩
  | .hbm, ⟨1, _⟩ => ⟨S16x128x8, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S64x256, .f32⟩
  | .hbm, ⟨7, _⟩ => ⟨S64x256, .f32⟩
  | .hbm, ⟨8, _⟩ => ⟨S1x256, .f32⟩
  | .hbm, ⟨9, _⟩ => ⟨S1x256, .f32⟩
  | .hbm, ⟨10, _⟩ => ⟨S1x1, .f32⟩
  | .hbm, ⟨11, _⟩ => ⟨S16x128x128, .f32⟩
  | .hbm, ⟨12, _⟩ => ⟨S127, .i32⟩
  | .hbm, ⟨13, _⟩ => ⟨S128, .i32⟩
  | .hbm, ⟨14, _⟩ => ⟨S1x127, .i32⟩
  | .hbm, ⟨15, _⟩ => ⟨S1x127, .i32⟩
  | .hbm, ⟨16, _⟩ => ⟨S128x1, .i32⟩
  | .hbm, ⟨17, _⟩ => ⟨S128x127, .i32⟩
  | .hbm, ⟨18, _⟩ => ⟨S128x127, .i32⟩
  | .hbm, ⟨19, _⟩ => ⟨S128x127, .i1⟩
  | .hbm, ⟨20, _⟩ => ⟨S128x127, .i32⟩
  | .hbm, ⟨21, _⟩ => ⟨S128x127, .i32⟩
  | .hbm, ⟨22, _⟩ => ⟨S128x127, .i32⟩
  | .hbm, ⟨23, _⟩ => ⟨S1x128x127, .i32⟩
  | .hbm, ⟨24, _⟩ => ⟨S16x128x127, .i32⟩
  | .hbm, ⟨25, _⟩ => ⟨S_, .i32⟩
  | .hbm, ⟨26, _⟩ => ⟨S16x128x127, .i32⟩
  | .hbm, ⟨27, _⟩ => ⟨S16x128x127, .i1⟩
  | .hbm, ⟨28, _⟩ => ⟨S_, .i32⟩
  | .hbm, ⟨29, _⟩ => ⟨S16x128x127, .i32⟩
  | .hbm, ⟨30, _⟩ => ⟨S16x128x127, .i32⟩
  | .hbm, ⟨31, _⟩ => ⟨S16x128x127, .i32⟩
  | .hbm, ⟨32, _⟩ => ⟨S16x128x127x1, .i32⟩
  | .hbm, ⟨33, _⟩ => ⟨S1, .i32⟩
  | .hbm, ⟨34, _⟩ => ⟨S_, .i32⟩
  | .hbm, ⟨35, _⟩ => ⟨S16x128x127x1, .i32⟩
  | .hbm, ⟨36, _⟩ => ⟨S16x128x127x1, .i1⟩
  | .hbm, ⟨37, _⟩ => ⟨S1x1x1x1, .i32⟩
  | .hbm, ⟨38, _⟩ => ⟨S16x128x127x1, .i32⟩
  | .hbm, ⟨39, _⟩ => ⟨S16x128x127x1, .i1⟩
  | .hbm, ⟨40, _⟩ => ⟨S16x128x127x1, .i1⟩
  | .hbm, ⟨41, _⟩ => ⟨S_, .i1⟩
  | .hbm, ⟨42, _⟩ => ⟨S16x128x127, .i1⟩
  | .hbm, ⟨43, _⟩ => ⟨S16x128x127, .f32⟩
  | .hbm, ⟨44, _⟩ => ⟨S_, .f32⟩
  | .hbm, ⟨45, _⟩ => ⟨S16x128x127, .f32⟩
  | .hbm, ⟨46, _⟩ => ⟨S16x128x127, .f32⟩
  | .local _ .vmem, ⟨0, _⟩ => ⟨S1x128x64, .f32⟩
  | .local _ .vmem, ⟨1, _⟩ => ⟨S1x128x64, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x1, .f32⟩
  | .local _ .vmem, ⟨11, _⟩ => ⟨S1x128x128, .f32⟩
  | .local _ .vmem, ⟨12, _⟩ => ⟨S1x128x128, .f32⟩
  | _, _ => ⟨S16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v19 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S128x256_S64x256_0_0 : S128x256.Slices ![0, 0] S64x256
  slices_S128x256_S64x256_64_0 : S128x256.Slices ![64, 0] S64x256
  shapeCasts_S256_S1x256 : S256.ShapeCasts S1x256
  transposes_S256x1_S1x256_1_0 : S256x1.Transposes [1, 0] S1x256
  shapeCasts_S1_S1x1 : S1.ShapeCasts S1x1
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  broadcasts_S1x1x128_S128x128x128 : S1x1x128.Broadcasts S128x128x128
  reduces_S128x128x128_S128x128 : S128x128x128.Reduces [2] S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bcast_S127_S1x127_1 : S127.BroadcastsInDim S1x127 (![1] : Fin 1 → Fin S1x127.rank)
  bcast_S128_S128x1_0 : S128.BroadcastsInDim S128x1 (![0] : Fin 1 → Fin S128x1.rank)
  bcast_S1x127_S128x127_0_1 : S1x127.BroadcastsInDim S128x127 (![0, 1] : Fin 2 → Fin S128x127.rank)
  bcast_S128x1_S128x127_0_1 : S128x1.BroadcastsInDim S128x127 (![0, 1] : Fin 2 → Fin S128x127.rank)
  natLt_1_32 : 1 < 32
  bcast_S128x127_S1x128x127_1_2 : S128x127.BroadcastsInDim S1x128x127 (![1, 2] : Fin 2 → Fin S1x128x127.rank)
  bcast_S1x128x127_S16x128x127_0_1_2 : S1x128x127.BroadcastsInDim S16x128x127 (![0, 1, 2] : Fin 3 → Fin S16x128x127.rank)
  bcast_S_S16x128x127 : S_.BroadcastsInDim S16x128x127 (![] : Fin 0 → Fin S16x128x127.rank)
  shapeCasts_S16x128x127_S16x128x127x1 : S16x128x127.ShapeCasts S16x128x127x1
  bcast_S_S16x128x127x1 : S_.BroadcastsInDim S16x128x127x1 (![] : Fin 0 → Fin S16x128x127x1.rank)
  bcast_S1_S1x1x1x1_3 : S1.BroadcastsInDim S1x1x1x1 (![3] : Fin 1 → Fin S1x1x1x1.rank)
  bcast_S1x1x1x1_S16x128x127x1_0_1_2_3 : S1x1x1x1.BroadcastsInDim S16x128x127x1 (![0, 1, 2, 3] : Fin 4 → Fin S16x128x127x1.rank)
  reducesTo_S16x128x127x1_S16x128x127_d3 : S16x128x127x1.ReducesTo [3] S16x128x127
  h_S_ : 0 < S_.numel
  dot_S128x64_S64x128_S128x128_1_0_0_1_n_n_wf : DotDims.WF S128x64 S64x128 S128x128 [1] [0] [0] [1] [] []
  gather_S16x128x128_S16x128x127x1_S16x128x127_n_2_01_01_2_3_111_wf : GatherDims.WF S16x128x128 S16x128x127x1 S16x128x127 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S16x128x64.size a
  hwx0_0 : ∀ i : grid0.Coords, EltTy.bits .f32 = 32 ∨ (Rect.block (s := S16x128x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x256.size a
  hwx0_1 : ∀ i : grid0.Coords, EltTy.bits .f32 = 32 ∨ (Rect.block (s := S64x256) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x256.size a
  hwx0_2 : ∀ i : grid0.Coords, EltTy.bits .f32 = 32 ∨ (Rect.block (s := S64x256) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x256.size a
  hwx0_3 : ∀ i : grid0.Coords, EltTy.bits .f32 = 32 ∨ (Rect.block (s := S1x256) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x128.size a ≤ S16x128x128.size a
  hwx0_6 : ∀ i : grid0.Coords, EltTy.bits .f32 = 32 ∨ (Rect.block (s := S16x128x128) S1x128x128.size (cc0_transform_6 i) (hinb0_6 i)).WholeWords (EltTy.packing .f32)

variable [Facts₀]

def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def gather_S16x128x128_S16x128x127x1_S16x128x127_n_2_01_01_2_3_111 : GatherDims S16x128x128 S16x128x127x1 S16x128x127 where
  offsetDims := []
  collapsedSliceDims := [2]
  operandBatchingDims := [0, 1]
  startIndicesBatchingDims := [0, 1]
  startIndexMap := [2]
  indexVectorDim := 3
  sliceSizes := ![1, 1, 1]
  wf := gather_S16x128x128_S16x128x127x1_S16x128x127_n_2_01_01_2_3_111_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x128x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x128x64 : Shape := ⟨3, ![16, 128, 64]⟩
abbrev S16x128x8 : Shape := ⟨3, ![16, 128, 8]⟩
abbrev S128x256 : Shape := ⟨2, ![128, 256]⟩
abbrev S256 : Shape := ⟨1, ![256]⟩
abbrev S256x1 : Shape := ⟨2, ![256, 1]⟩
abbrev S1 : Shape := ⟨1, ![1]⟩
abbrev S2048x64 : Shape := ⟨2, ![2048, 64]⟩
abbrev S127 : Shape := ⟨1, ![127]⟩
abbrev S128 : Shape := ⟨1, ![128]⟩
abbrev S1x127 : Shape := ⟨2, ![1, 127]⟩
abbrev S128x1 : Shape := ⟨2, ![128, 1]⟩
abbrev S128x127 : Shape := ⟨2, ![128, 127]⟩
abbrev S16256 : Shape := ⟨1, ![16256]⟩
abbrev S16 : Shape := ⟨1, ![16]⟩
abbrev S_ : Shape := ⟨0, ![]⟩
abbrev S16x1 : Shape := ⟨2, ![16, 1]⟩
abbrev S1x16256 : Shape := ⟨2, ![1, 16256]⟩
abbrev S16x16256 : Shape := ⟨2, ![16, 16256]⟩
abbrev S260096 : Shape := ⟨1, ![260096]⟩
abbrev S260096x1 : Shape := ⟨2, ![260096, 1]⟩
abbrev S260096x64 : Shape := ⟨2, ![260096, 64]⟩
abbrev S260096x128 : Shape := ⟨2, ![260096, 128]⟩
abbrev S260096x256 : Shape := ⟨2, ![260096, 256]⟩
abbrev S1x256 : Shape := ⟨2, ![1, 256]⟩
abbrev S1x1 : Shape := ⟨2, ![1, 1]⟩
abbrev S16x128x127 : Shape := ⟨3, ![16, 128, 127]⟩

abbrev nBuf : Space → Nat
  | .hbm => 67
  | .vmem => 0
  | .smem => 0
  | _ => 0

abbrev bufTy : (tb : Table) → Fin (tcTables nBuf tb) → BufTy
  | .hbm, ⟨0, _⟩ => ⟨S16x128x64, .f32⟩
  | .hbm, ⟨1, _⟩ => ⟨S16x128x8, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S2048x64, .f32⟩
  | .hbm, ⟨7, _⟩ => ⟨S127, .i32⟩
  | .hbm, ⟨8, _⟩ => ⟨S128, .i32⟩
  | .hbm, ⟨9, _⟩ => ⟨S1x127, .i32⟩
  | .hbm, ⟨10, _⟩ => ⟨S1x127, .i32⟩
  | .hbm, ⟨11, _⟩ => ⟨S128x1, .i32⟩
  | .hbm, ⟨12, _⟩ => ⟨S128x127, .i32⟩
  | .hbm, ⟨13, _⟩ => ⟨S128x127, .i32⟩
  | .hbm, ⟨14, _⟩ => ⟨S128x127, .i1⟩
  | .hbm, ⟨15, _⟩ => ⟨S128x127, .i32⟩
  | .hbm, ⟨16, _⟩ => ⟨S128x127, .i32⟩
  | .hbm, ⟨17, _⟩ => ⟨S128x127, .i32⟩
  | .hbm, ⟨18, _⟩ => ⟨S16256, .i32⟩
  | .hbm, ⟨19, _⟩ => ⟨S128x127, .i32⟩
  | .hbm, ⟨20, _⟩ => ⟨S16256, .i32⟩
  | .hbm, ⟨21, _⟩ => ⟨S16, .i32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S1x16256, .i32⟩
  | .hbm, ⟨27, _⟩ => ⟨S16x16256, .i32⟩
  | .hbm, ⟨28, _⟩ => ⟨S16x16256, .i32⟩
  | .hbm, ⟨29, _⟩ => ⟨S16x16256, .i32⟩
  | .hbm, ⟨30, _⟩ => ⟨S260096, .i32⟩
  | .hbm, ⟨31, _⟩ => ⟨S1x16256, .i32⟩
  | .hbm, ⟨32, _⟩ => ⟨S16x16256, .i32⟩
  | .hbm, ⟨33, _⟩ => ⟨S16x16256, .i32⟩
  | .hbm, ⟨34, _⟩ => ⟨S16x16256, .i32⟩
  | .hbm, ⟨35, _⟩ => ⟨S260096, .i32⟩
  | .hbm, ⟨36, _⟩ => ⟨S_, .i32⟩
  | .hbm, ⟨37, _⟩ => ⟨S260096, .i32⟩
  | .hbm, ⟨38, _⟩ => ⟨S260096, .i1⟩
  | .hbm, ⟨39, _⟩ => ⟨S_, .i32⟩
  | .hbm, ⟨40, _⟩ => ⟨S260096, .i32⟩
  | .hbm, ⟨41, _⟩ => ⟨S260096, .i32⟩
  | .hbm, ⟨42, _⟩ => ⟨S260096, .i32⟩
  | .hbm, ⟨43, _⟩ => ⟨S260096x1, .i32⟩
  | .hbm, ⟨44, _⟩ => ⟨S260096x64, .f32⟩
  | .hbm, ⟨45, _⟩ => ⟨S_, .i32⟩
  | .hbm, ⟨46, _⟩ => ⟨S260096, .i32⟩
  | .hbm, ⟨47, _⟩ => ⟨S260096, .i1⟩
  | .hbm, ⟨48, _⟩ => ⟨S_, .i32⟩
  | .hbm, ⟨49, _⟩ => ⟨S260096, .i32⟩
  | .hbm, ⟨50, _⟩ => ⟨S260096, .i32⟩
  | .hbm, ⟨51, _⟩ => ⟨S260096, .i32⟩
  | .hbm, ⟨52, _⟩ => ⟨S260096x1, .i32⟩
  | .hbm, ⟨53, _⟩ => ⟨S260096x64, .f32⟩
  | .hbm, ⟨54, _⟩ => ⟨S260096x128, .f32⟩
  | .hbm, ⟨55, _⟩ => ⟨S260096x256, .f32⟩
  | .hbm, ⟨56, _⟩ => ⟨S1x256, .f32⟩
  | .hbm, ⟨57, _⟩ => ⟨S260096x256, .f32⟩
  | .hbm, ⟨58, _⟩ => ⟨S260096x256, .f32⟩
  | .hbm, ⟨59, _⟩ => ⟨S_, .f32⟩
  | .hbm, ⟨60, _⟩ => ⟨S260096x256, .f32⟩
  | .hbm, ⟨61, _⟩ => ⟨S260096x256, .f32⟩
  | .hbm, ⟨62, _⟩ => ⟨S260096x1, .f32⟩
  | .hbm, ⟨63, _⟩ => ⟨S1x1, .f32⟩
  | .hbm, ⟨64, _⟩ => ⟨S260096x1, .f32⟩
  | .hbm, ⟨65, _⟩ => ⟨S260096x1, .f32⟩
  | .hbm, ⟨66, _⟩ => ⟨S16x128x127, .f32⟩
  | _, _ => ⟨S16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_0 : Ref sig .tc := ⟨.hbm, 36, rfl⟩
abbrev main_v29 : Ref sig .tc := ⟨.hbm, 37, rfl⟩
abbrev main_v30 : Ref sig .tc := ⟨.hbm, 38, rfl⟩
abbrev main_c_1 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_2 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_call0_cst : Ref sig .tc := ⟨.hbm, 59, rfl⟩
abbrev main_call0_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]

class Facts₀ : Prop where
  shapeCasts_S16x128x64_S2048x64 : S16x128x64.ShapeCasts S2048x64
  bcast_S127_S1x127_1 : S127.BroadcastsInDim S1x127 (![1] : Fin 1 → Fin S1x127.rank)
  bcast_S128_S128x1_0 : S128.BroadcastsInDim S128x1 (![0] : Fin 1 → Fin S128x1.rank)
  bcast_S1x127_S128x127_0_1 : S1x127.BroadcastsInDim S128x127 (![0, 1] : Fin 2 → Fin S128x127.rank)
  bcast_S128x1_S128x127_0_1 : S128x1.BroadcastsInDim S128x127 (![0, 1] : Fin 2 → Fin S128x127.rank)
  natLt_1_32 : 1 < 32
  shapeCasts_S128x127_S16256 : S128x127.ShapeCasts S16256
  bcast_S128_S128x127_0 : S128.BroadcastsInDim S128x127 (![0] : Fin 1 → Fin S128x127.rank)
  bcast_S_S16 : S_.BroadcastsInDim S16 (![] : Fin 0 → Fin S16.rank)
  bcast_S16_S16x1_0 : S16.BroadcastsInDim S16x1 (![0] : Fin 1 → Fin S16x1.rank)
  bcast_S16256_S1x16256_1 : S16256.BroadcastsInDim S1x16256 (![1] : Fin 1 → Fin S1x16256.rank)
  bcast_S1x16256_S16x16256_0_1 : S1x16256.BroadcastsInDim S16x16256 (![0, 1] : Fin 2 → Fin S16x16256.rank)
  bcast_S16x1_S16x16256_0_1 : S16x1.BroadcastsInDim S16x16256 (![0, 1] : Fin 2 → Fin S16x16256.rank)
  shapeCasts_S16x16256_S260096 : S16x16256.ShapeCasts S260096
  bcast_S_S260096 : S_.BroadcastsInDim S260096 (![] : Fin 0 → Fin S260096.rank)
  bcast_S260096_S260096x1_0 : S260096.BroadcastsInDim S260096x1 (![0] : Fin 1 → Fin S260096x1.rank)
  concatenates_S260096x64_S260096x64_S260096x128_d1 : Shape.Concatenates [S260096x64, S260096x64] S260096x128 1
  bcast_S256_S1x256_1 : S256.BroadcastsInDim S1x256 (![1] : Fin 1 → Fin S1x256.rank)
  bcast_S1x256_S260096x256_0_1 : S1x256.BroadcastsInDim S260096x256 (![0, 1] : Fin 2 → Fin S260096x256.rank)
  bcast_S_S260096x256 : S_.BroadcastsInDim S260096x256 (![] : Fin 0 → Fin S260096x256.rank)
  bcast_S1_S1x1_1 : S1.BroadcastsInDim S1x1 (![1] : Fin 1 → Fin S1x1.rank)
  bcast_S1x1_S260096x1_0_1 : S1x1.BroadcastsInDim S260096x1 (![0, 1] : Fin 2 → Fin S260096x1.rank)
  shapeCasts_S260096x1_S16x128x127 : S260096x1.ShapeCasts S16x128x127
  gather_S2048x64_S260096x1_S260096x64_1_0_n_n_0_1_164_wf : GatherDims.WF S2048x64 S260096x1 S260096x64 [1] [0] [] [0] [] 1 ![1, 64]
  dot_S260096x128_S128x256_S260096x256_1_0_0_1_n_n_wf : DotDims.WF S260096x128 S128x256 S260096x256 [1] [0] [0] [1] [] []
  dot_S260096x256_S256x1_S260096x1_1_0_0_1_n_n_wf : DotDims.WF S260096x256 S256x1 S260096x1 [1] [0] [0] [1] [] []

variable [Facts₀]

def gather_S2048x64_S260096x1_S260096x64_1_0_n_n_0_1_164 : GatherDims S2048x64 S260096x1 S260096x64 where
  offsetDims := [1]
  collapsedSliceDims := [0]
  operandBatchingDims := []
  startIndicesBatchingDims := []
  startIndexMap := [0]
  indexVectorDim := 1
  sliceSizes := ![1, 64]
  wf := gather_S2048x64_S260096x1_S260096x64_1_0_n_n_0_1_164_wf
def dot_S260096x128_S128x256_S260096x256_1_0_0_1_n_n : DotDims S260096x128 S128x256 S260096x256 where
  lhsContracting := [1]
  rhsContracting := [0]
  lhsNonContracting := [0]
  rhsNonContracting := [1]
  lhsBatch := []
  rhsBatch := []
  wf := dot_S260096x128_S128x256_S260096x256_1_0_0_1_n_n_wf
def dot_S260096x256_S256x1_S260096x1_1_0_0_1_n_n : DotDims S260096x256 S256x1 S260096x1 where
  lhsContracting := [1]
  rhsContracting := [0]
  lhsNonContracting := [0]
  rhsNonContracting := [1]
  lhsBatch := []
  rhsBatch := []
  wf := dot_S260096x256_S256x1_S260096x1_1_0_0_1_n_n_wf

class Facts : Prop extends Facts₀ where

variable [Facts]
-- ==== Proof.Spec.lean ====
/-
  The edge network, as one function of the argument arrays.

  For a time step t and an ordered pair of nodes (i, j), the edge value is
      ( ∑ h < 256, max( (∑ d < 64, x[t,i,d] · W1[d,h] + ∑ d < 64, x[t,j,d] · W1[64+d,h]) + b1[h], 0 ) · W2[h,0] ) + b2[0]
  over the extended reals.  The result array keeps, for every row i, the 127 columns j ≠ i in increasing order:
  entry k of row i is column k when k < i and column k + 1 otherwise.

  Two re-associations of these sums are proved here, both laws of a commutative monoid (no finiteness is needed):
  a sum over 2n positions is the sum over its first n positions plus the sum over its last n positions.  Applied to
  the 128 rows of W1 it splits the product with the concatenated pair of node vectors into the two half products;
  applied to the 256 hidden units it splits the outer sum into the two tiles of 128 hidden units that are
  accumulated one after the other, starting from zero.
-/
import Idealize.ShloMosaic.PureOps.Ideal
import Idealize.ShloMosaic.PureOps.Ideal.Laws
import Idealize.ShloMosaic.Lib.ValueIdx

noncomputable section

namespace EdgeMlp

open Idealize.ShloMosaic Idealize.ShloMosaic.ValueIdx

/-- The column of entry k of row i once the diagonal is dropped. -/
def col (i : Fin 128) (k : Fin 127) : Fin 128 :=
  ⟨k.val + (if i.val ≤ k.val then 1 else 0), by have := k.isLt; split <;> omega⟩

/-- Row d of the upper half of W1, and row d of its lower half. -/
def lo64 (d : Fin 64) : Fin 128 := ⟨d.val, by have := d.isLt; omega⟩
def hi64 (d : Fin 64) : Fin 128 := ⟨64 + d.val, by have := d.isLt; omega⟩

/-- Hidden unit h of tile s (two tiles of 128 hidden units). -/
def hsel (s : Fin 2) (h : Fin 128) : Fin 256 := ⟨128 * s.val + h.val, by have := s.isLt; have := h.isLt; omega⟩

/-- The zero the rectifier compares with, as the programs spell it. -/
abbrev zero : EReal := Ideal.ofBits .f32 0x00000000#32

theorem zero_eq : zero = 0 := Ideal.ofBits_zero_f32

variable (x : (⟨3, ![16, 128, 64]⟩ : Shape).Idx → EReal) (W1 : (⟨2, ![128, 256]⟩ : Shape).Idx → EReal)
  (b1 : (⟨1, ![256]⟩ : Shape).Idx → EReal) (W2 : (⟨2, ![256, 1]⟩ : Shape).Idx → EReal) (b2 : (⟨1, ![1]⟩ : Shape).Idx → EReal)

/-- Hidden unit h of the edge (t, i, j), weighted by W2: the rectified affine form of the two node vectors. -/
def hid (t : Fin 16) (i j : Fin 128) (h : Fin 256) : EReal :=
  max (((∑ d : Fin 64, x (ix3 t i d) * W1 (ix2 (lo64 d) h)) + (∑ d : Fin 64, x (ix3 t j d) * W1 (ix2 (hi64 d) h))) + b1 (ix1 h)) zero
    * W2 (ix2 h (0 : Fin 1))

/-- The edge value. -/
def edge (t : Fin 16) (i j : Fin 128) : EReal := (∑ h : Fin 256, hid x W1 b1 W2 t i j h) + b2 (ix1 (0 : Fin 1))

/-- One tile's share of the edge value: the 128 hidden units of tile s. -/
def tile (t : Fin 16) (i j : Fin 128) (s : Fin 2) : EReal := ∑ h : Fin 128, hid x W1 b1 W2 t i j (hsel s h)

/-- The same share, read off the blocks one grid point sees: the node block x0 [1, 128, 64], the two weight blocks
    x1, x2 [64, 128] (upper and lower half of W1, the tile's 128 columns), the bias row x3 and the output weight row x4
    [1, 128]. -/
def blockTile (x0 : (⟨3, ![1, 128, 64]⟩ : Shape).Idx → EReal) (x1 x2 : (⟨2, ![64, 128]⟩ : Shape).Idx → EReal)
    (x3 x4 : (⟨2, ![1, 128]⟩ : Shape).Idx → EReal) (i j : Fin 128) : EReal :=
  ∑ h : Fin 128, max (((∑ d : Fin 64, x0 (ix3 (0 : Fin 1) i d) * x1 (ix2 d h)) + (∑ d : Fin 64, x0 (ix3 (0 : Fin 1) j d) * x2 (ix2 d h)))
      + x3 (ix2 (0 : Fin 1) h)) zero * x4 (ix2 (0 : Fin 1) h)

/-- All pairs: the [16, 128, 128] array the kernel's region leaves. -/
def Gfull : (⟨3, ![16, 128, 128]⟩ : Shape).Idx → EReal := fun o => edge x W1 b1 W2 b2 (o 0) (o 1) (o 2)

/-- The result: the [16, 128, 127] array without the diagonal. -/
def G : (⟨3, ![16, 128, 127]⟩ : Shape).Idx → EReal := fun o => edge x W1 b1 W2 b2 (o 0) (o 1) (col (o 1) (o 2))

/-- A sum over 2n positions is the sum over the first n plus the sum over the last n. -/
theorem sum_halves {M : Type} [AddCommMonoid M] (n : Nat) (f : Fin (n + n) → M) :
    ∑ k, f k = ∑ d : Fin n, f (Fin.castAdd n d) + ∑ d : Fin n, f (Fin.natAdd n d) := Fin.sum_univ_add f

/-- The 128 rows of W1: the upper 64 and the lower 64. -/
theorem sum_halves64 {M : Type} [AddCommMonoid M] (f : Fin 128 → M) :
    ∑ k, f k = ∑ d : Fin 64, f (lo64 d) + ∑ d : Fin 64, f (hi64 d) := sum_halves 64 f

/-- The 256 hidden units: tile 0 and tile 1. -/
theorem sum_halves128 {M : Type} [AddCommMonoid M] (f : Fin 256 → M) :
    ∑ k, f k = ∑ h : Fin 128, f (hsel 0 h) + ∑ h : Fin 128, f (hsel 1 h) := by
  refine (sum_halves 128 f).trans ?_
  congr 1

/-- The edge value as the kernel accumulates it: from zero, tile 0, then tile 1, then the output bias. -/
theorem edge_eq_tiles (t : Fin 16) (i j : Fin 128) :
    edge x W1 b1 W2 b2 t i j = ((zero + tile x W1 b1 W2 t i j 0) + tile x W1 b1 W2 t i j 1) + b2 (ix1 (0 : Fin 1)) := by
  unfold edge tile
  rw [sum_halves128, zero_eq, zero_add]

end EdgeMlp

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernPieces.lean ====
/-
  What one grid point of the edge network's kernel leaves in its [1, 128, 128] output block, and that block entry by entry.

  A point of hidden tile 0 resets the block to zero and adds its tile's share; a point of hidden tile 1 adds its share to
  what the point before left and then adds the output bias. In both cases the last store covers the whole block, so the
  block ends as that store's value, the earlier store being what the later value read back. Entry (i, j) of a tile's share
  is the sum over the tile's 128 hidden units h of max((x_i . W1a[:, h] + x_j . W1b[:, h]) + b1[h], 0) * W2[h]: row i of the
  first product and row j of the second are spread over all pairs, the two rows b1 and W2 over every pair, and the hidden
  axis is summed. Over the extended reals the narrowing of the products' operands is the identity, and a product into the
  zero accumulator is the plain sum over the 64 features.
-/
import proofs.«127992_j39195871543399_1_alg».proof.Proof.Gen.KernelIdeal.Frame
import proofs.«127992_j39195871543399_1_alg».proof.Proof.Spec
import proofs.«127992_j39195871543399_1_alg».proof.Proof.LibPlainDot
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Pieces

open Cert.KernelIdeal Cert.KernelIdeal.Gen

variable {F : FTy → Type} [FloatOps F]

/-- What a grid point of tile 0 leaves in the output block: the block is reset to zero and the tile's share added. -/
def stepA (x0 : Vec F S1x128x64 .f32) (x1 : Vec F S64x128 .f32) (x2 : Vec F S64x128 .f32) (x3 : Vec F S1x128 .f32) (x4 : Vec F S1x128 .f32) : Vec F S1x128x128 .f32 :=
  k0_pay1 (k0_pay4 x0 x1 x2 x3 x4 (k0_pay3 (F := F)))

/-- What a grid point of tile 1 leaves: the tile's share added to what the point before left (xo), then the output bias. -/
def stepB (x0 : Vec F S1x128x64 .f32) (x1 : Vec F S64x128 .f32) (x2 : Vec F S64x128 .f32) (x3 : Vec F S1x128 .f32) (x4 : Vec F S1x128 .f32) (x5 : Vec F S1x1 .f32) (xo : Vec F S1x128x128 .f32) : Vec F S1x128x128 .f32 :=
  k0_pay2 (k0_pay1 (k0_pay4 x0 x1 x2 x3 x4 xo)) x5

/-! ## Offsets of a whole block -/

/-- The offsets of a whole rank-3 block are all zero. -/
private theorem hz3 : (![0, 0, 0] : Fin 3 → Nat) = fun _ => 0 := funext fun a => by fin_cases a <;> rfl

/-- The offsets of a whole rank-2 block are all zero. -/
private theorem hz2 : (![0, 0] : Fin 2 → Nat) = fun _ => 0 := funext fun a => by fin_cases a <;> rfl

/-! ## Changes of layout read at an entry -/

section Layout
variable {α : Type}

/-- A [128, 128] array viewed as [128, 1, 128]: entry (i, u, h) is entry (i, h). -/
private theorem cast_ab_a1b (v : (⟨2, ![128, 128]⟩ : Shape).Idx → α) (hc : (⟨2, ![128, 128]⟩ : Shape).ShapeCasts ⟨3, ![128, 1, 128]⟩)
    (i : Fin 128) (u : Fin 1) (h : Fin 128) : shapeCast ⟨3, ![128, 1, 128]⟩ v hc (ix3 i u h) = v (ix2 i h) :=
  shapeCast_apply v hc _ _ (by
    have hu : u.val = 0 := by omega
    rw [Shape.rowMajor_val_three, Shape.rowMajor_val_two]
    show i.val * 128 + h.val = (i.val * 1 + u.val) * 128 + h.val
    rw [hu, Nat.mul_one, Nat.add_zero])

/-- A [1, 128] row viewed as [1, 1, 128]: entry (u, w, h) is entry (0, h). -/
private theorem cast_1b_11b (v : (⟨2, ![1, 128]⟩ : Shape).Idx → α) (hc : (⟨2, ![1, 128]⟩ : Shape).ShapeCasts ⟨3, ![1, 1, 128]⟩)
    (u w : Fin 1) (h : Fin 128) : shapeCast ⟨3, ![1, 1, 128]⟩ v hc (ix3 u w h) = v (ix2 (0 : Fin 1) h) :=
  shapeCast_apply v hc _ _ (by
    have hu : u.val = 0 := by omega
    have hw : w.val = 0 := by omega
    rw [Shape.rowMajor_val_three, Shape.rowMajor_val_two]
    show 0 * 128 + h.val = (u.val * 1 + w.val) * 128 + h.val
    rw [hu, hw])

/-- [128, 1, 128] repeated along the middle axis: entry (i, j, h) is entry (i, 0, h). -/
private theorem bcast_a1b (v : (⟨3, ![128, 1, 128]⟩ : Shape).Idx → α) (hb : (⟨3, ![128, 1, 128]⟩ : Shape).Broadcasts ⟨3, ![128, 128, 128]⟩)
    (i j h : Fin 128) : broadcastTo ⟨3, ![128, 128, 128]⟩ v hb (ix3 i j h) = v (ix3 i (0 : Fin 1) h) :=
  broadcastTo_apply v hb _ _ (fun a => by
    match a with
    | ⟨0, _⟩ => rfl
    | ⟨1, _⟩ => rfl
    | ⟨2, _⟩ => rfl)

/-- [1, 128, 128] repeated along the first axis: entry (i, j, h) is entry (0, j, h). -/
private theorem bcast_1ab (v : (⟨3, ![1, 128, 128]⟩ : Shape).Idx → α) (hb : (⟨3, ![1, 128, 128]⟩ : Shape).Broadcasts ⟨3, ![128, 128, 128]⟩)
    (i j h : Fin 128) : broadcastTo ⟨3, ![128, 128, 128]⟩ v hb (ix3 i j h) = v (ix3 (0 : Fin 1) j h) :=
  broadcastTo_apply v hb _ _ (fun a => by
    match a with
    | ⟨0, _⟩ => rfl
    | ⟨1, _⟩ => rfl
    | ⟨2, _⟩ => rfl)

/-- [1, 1, 128] repeated along the first two axes: entry (i, j, h) is entry (0, 0, h). -/
private theorem bcast_11b (v : (⟨3, ![1, 1, 128]⟩ : Shape).Idx → α) (hb : (⟨3, ![1, 1, 128]⟩ : Shape).Broadcasts ⟨3, ![128, 128, 128]⟩)
    (i j h : Fin 128) : broadcastTo ⟨3, ![128, 128, 128]⟩ v hb (ix3 i j h) = v (ix3 (0 : Fin 1) (0 : Fin 1) h) :=
  broadcastTo_apply v hb _ _ (fun a => by
    match a with
    | ⟨0, _⟩ => rfl
    | ⟨1, _⟩ => rfl
    | ⟨2, _⟩ => rfl)

end Layout

/-! ## The lane sum and the matrix product read at an entry, over the extended reals -/

section AtIdeal

/-- The lane sum over the last axis of a [128, 128, 128] array: entry (i, j) is the sum over h of entry (i, j, h). -/
private theorem laneSum_apply (v : FVec Ideal S128x128x128 .f32) (hr : S128x128x128.Reduces [2] S128x128)
    (hφ : FKind.Formats .f32) (hacc : (0x00000000#32 : BitVec 32) = FKind.add.neutral .f32 hφ) (i j : Fin 128) :
    multiReduction (F := Ideal) .add [2] S128x128 v 0x00000000#32 hr hφ hacc (ix2 i j) = ∑ h : Fin 128, v (ix3 i j h) := by
  refine (Ideal.multiReduction_add_single v _ hr hφ hacc (ix2 i j)).trans ?_
  refine Finset.sum_congr rfl fun h _ => congrArg v ?_
  funext a
  apply Fin.ext
  match a with
  | ⟨0, _⟩ => rfl
  | ⟨1, _⟩ => rfl
  | ⟨2, _⟩ => rfl

/-- A [128, 64] by [64, 128] product into the zero accumulator: entry (p, q) is the sum over d of l (p, d) * r (d, q). -/
private theorem mm_apply (l : FVec Ideal S128x64 .bf16) (r : FVec Ideal S64x128 .bf16) (p q : Fin 128) :
    matmul (F := Ideal) dot_S128x64_S64x128_S128x128_1_0_0_1_n_n none l r (constant (F := Ideal) S128x128 .f32 0x00000000#32) (ix2 p q)
      = ∑ d : Fin 64, l (ix2 p d) * r (ix2 d q) :=
  (Ideal.matmul_constant_zero_apply dot_S128x64_S64x128_S128x128_1_0_0_1_n_n none l r (ix2 p q)).trans
    (PlainDot.sum_eq dot_S128x64_S64x128_S128x128_1_0_0_1_n_n rfl rfl rfl rfl rfl rfl l r p q)

end AtIdeal

/-! ## The accumulating payload at a pair of nodes -/

section Pay

/-- The accumulating payload at (i, j): what the block held there, plus the tile's share of the edge (i, j). The first
    product's row i and the second product's row j are spread over the pairs, the bias row and the output weight row over
    every pair, and the 128 hidden units are summed. -/
private theorem pay4_apply (x0 : FVec Ideal S1x128x64 .f32) (x1 x2 : FVec Ideal S64x128 .f32) (x3 x4 : FVec Ideal S1x128 .f32)
    (xo : FVec Ideal S1x128x128 .f32) (i j : Fin 128) :
    k0_pay4 (F := Ideal) x0 x1 x2 x3 x4 xo (ix2 i j) = xo (ix3 (0 : Fin 1) i j) + EdgeMlp.blockTile x0 x1 x2 x3 x4 i j := by
  unfold k0_pay4
  dsimp only
  refine (addf_apply _ _ (ix2 i j)).trans ?_
  refine congrArg₂ (· + ·) (shapeCast_1ab_ab_apply xo _ i j) ?_
  refine (laneSum_apply _ _ _ _ i j).trans ?_
  unfold EdgeMlp.blockTile
  refine Finset.sum_congr rfl fun h _ => ?_
  refine (mulf_apply _ _ (ix3 i j h)).trans ?_
  refine congrArg₂ (· * ·) ?_ ?_
  · refine (maximumf_apply _ _ (ix3 i j h)).trans ?_
    refine congrArg₂ max ?_ rfl
    refine (addf_apply _ _ (ix3 i j h)).trans ?_
    refine congrArg₂ (· + ·) ?_ ?_
    · refine (addf_apply _ _ (ix3 i j h)).trans ?_
      refine congrArg₂ (· + ·) ?_ ?_
      · refine (bcast_a1b _ _ i j h).trans ?_
        refine (cast_ab_a1b _ _ i 0 h).trans ?_
        refine (mm_apply _ _ i h).trans ?_
        refine Finset.sum_congr rfl fun d _ => ?_
        exact congrArg₂ (· * ·) (shapeCast_1ab_ab_apply x0 _ i d) (congrFun (shapeCast_self x1 _) (ix2 d h))
      · refine (bcast_1ab _ _ i j h).trans ?_
        refine (shapeCast_ab_1ab_apply _ _ 0 j h).trans ?_
        refine (mm_apply _ _ j h).trans ?_
        refine Finset.sum_congr rfl fun d _ => ?_
        exact congrArg₂ (· * ·) (shapeCast_1ab_ab_apply x0 _ j d) (congrFun (shapeCast_self x2 _) (ix2 d h))
    · refine (bcast_11b _ _ i j h).trans ?_
      refine (cast_1b_11b _ _ 0 0 h).trans ?_
      exact congrFun (shapeCast_self x3 _) (ix2 0 h)
  · refine (bcast_11b _ _ i j h).trans ?_
    refine (cast_1b_11b _ _ 0 0 h).trans ?_
    exact congrFun (shapeCast_self x4 _) (ix2 0 h)

end Pay

/-! ## What each control case leaves, and its entries -/

theorem out_A (c : Dev nD) (i : grid0.Coords) (arg2 : Memref sig .tc .vmem S1x128x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x128x128 .f32) (harg8 : arg8.IsWhole) (hc0 : cond0_0 i) (hc1 : ¬cond0_1 i) (x0 : Vec F S1x128x64 .f32) (x1 : Vec F S64x128 .f32) (x2 : Vec F S64x128 .f32) (x3 : Vec F S1x128 .f32) (x4 : Vec F S1x128 .f32) (x5 : Vec F S1x1 .f32) :
    out0_A_6 c i arg2 harg2 arg3 harg3 arg4 harg4 arg5 harg5 arg6 harg6 arg7 harg7 arg8 harg8 hc0 hc1 x0 x1 x2 x3 x4 x5 = stepA x0 x1 x2 x3 x4 := by
  -- two stores of the whole block, the later covering: the block is the later store's value, which read the earlier one back
  unfold out0_A_6
  rw [View.read_writes_eq_canon _ _ _ (cover0_A_6 c i arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S1x128x128) hz3]
  unfold stepA
  simp only [View.readAt_eq_ld, harg2.read_unread, harg3.read_unread, harg4.read_unread, harg5.read_unread, harg6.read_unread,
    View.readCov_unit_zero (S := S1x128x128) _ hz3,
    View.ld_unit_zero (S := S1x128x64) hz3, View.ld_unit_zero (S := S64x128) hz2, View.ld_unit_zero (S := S1x128) hz2]

theorem out_B (c : Dev nD) (i : grid0.Coords) (arg2 : Memref sig .tc .vmem S1x128x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x128x128 .f32) (harg8 : arg8.IsWhole) (hc0 : ¬cond0_0 i) (hc1 : cond0_1 i) (x0 : Vec F S1x128x64 .f32) (x1 : Vec F S64x128 .f32) (x2 : Vec F S64x128 .f32) (x3 : Vec F S1x128 .f32) (x4 : Vec F S1x128 .f32) (x5 : Vec F S1x1 .f32) (xo6 : Vec F S1x128x128 .f32) :
    out0_B_6 c i arg2 harg2 arg3 harg3 arg4 harg4 arg5 harg5 arg6 harg6 arg7 harg7 arg8 harg8 hc0 hc1 x0 x1 x2 x3 x4 x5 xo6 = stepB x0 x1 x2 x3 x4 x5 xo6 := by
  -- two stores of the whole block, the later covering: the block is the later store's value, which read the earlier one back
  unfold out0_B_6
  rw [View.read_writes_eq_canon _ _ _ (cover0_B_6 c i arg2 harg2 arg3 harg3 arg4 harg4 arg5 harg5 arg6 harg6 arg7 harg7 arg8 harg8 hc0 hc1 x0 x1 x2 x3 x4 x5 xo6)]
  unfold kernelRun0_B
  dsimp only
  sl_unfold_words
  rw [View.canon_cons_unit_zero (S := S1x128x128) hz3]
  unfold stepB
  simp only [View.readAt_eq_ld, harg2.read_unread, harg3.read_unread, harg4.read_unread, harg5.read_unread, harg6.read_unread, harg7.read_unread, harg8.read_unread,
    View.readCov_unit_zero (S := S1x128x128) _ hz3,
    View.ld_unit_zero (S := S1x128x64) hz3, View.ld_unit_zero (S := S1x128x128) hz3, View.ld_unit_zero (S := S64x128) hz2, View.ld_unit_zero (S := S1x128) hz2, View.ld_unit_zero (S := S1x1) hz2]

/-- Entry (i, j) of what a tile-0 point leaves: zero plus the tile's share of the edge (i, j). -/
theorem stepA_apply (x0 : FVec Ideal S1x128x64 .f32) (x1 x2 : FVec Ideal S64x128 .f32) (x3 x4 : FVec Ideal S1x128 .f32) (i j : Fin 128) :
    stepA (F := Ideal) x0 x1 x2 x3 x4 (ix3 (0 : Fin 1) i j) = EdgeMlp.zero + EdgeMlp.blockTile x0 x1 x2 x3 x4 i j := by
  unfold stepA k0_pay1
  refine (shapeCast_ab_1ab_apply _ _ 0 i j).trans ?_
  refine (pay4_apply x0 x1 x2 x3 x4 _ i j).trans ?_
  refine congrArg₂ (· + ·) ?_ rfl
  unfold k0_pay3
  exact (shapeCast_ab_1ab_apply _ _ 0 i j).trans rfl

/-- Entry (i, j) of what a tile-1 point leaves: the entry before, plus the tile's share, plus the output bias. -/
theorem stepB_apply (x0 : FVec Ideal S1x128x64 .f32) (x1 x2 : FVec Ideal S64x128 .f32) (x3 x4 : FVec Ideal S1x128 .f32) (x5 : FVec Ideal S1x1 .f32)
    (xo : FVec Ideal S1x128x128 .f32) (i j : Fin 128) :
    stepB (F := Ideal) x0 x1 x2 x3 x4 x5 xo (ix3 (0 : Fin 1) i j)
      = (xo (ix3 (0 : Fin 1) i j) + EdgeMlp.blockTile x0 x1 x2 x3 x4 i j) + x5 (ix2 (0 : Fin 1) (0 : Fin 1)) := by
  unfold stepB k0_pay2 k0_pay1
  refine (shapeCast_ab_1ab_apply _ _ 0 i j).trans ?_
  refine (addf_apply _ _ (ix2 i j)).trans ?_
  refine congrArg₂ (· + ·) ?_ ?_
  · refine (shapeCast_1ab_ab_apply _ _ i j).trans ?_
    refine (shapeCast_ab_1ab_apply _ _ 0 i j).trans ?_
    exact pay4_apply x0 x1 x2 x3 x4 xo i j
  · refine congrArg x5 ?_
    funext a
    apply Fin.ext
    match a with
    | ⟨0, _⟩ => rfl
    | ⟨1, _⟩ => rfl

end Cert.KernelIdeal.Pieces

end
-- ==== Proof.KernBlocks.lean ====
/-
  What each input window's block holds at a grid point, read off the program's arguments.

  The grid has 16 x 2 points; point n works on time step n / 2 and on hidden tile n % 2.  A block's coordinate in its
  array is always (block index) x (block extent) + (coordinate inside the block).  The node window's block index is the
  time step; the four weight and bias windows' block index along their last axis is the tile; the output bias window has
  one block.  The arrays of windows 1 to 5 are written by host lines before the region: the upper and the lower 64 rows
  of W1, b1 as one row, W2 transposed to one row, b2 as a 1 x 1 array; each is read back at an index.
-/
import proofs.«127992_j39195871543399_1_alg».proof.Proof.Gen.KernelIdeal.Frame
import proofs.«127992_j39195871543399_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- Grid point n of the 16 x 2 grid works on time step n / 2 and on hidden tile n % 2. -/
def tstep (t : Fin cfg0.N) : Fin 16 := ⟨t.val / 2, by have h : t.val < 32 := lt_of_lt_of_eq t.isLt (show cfg0.N = 32 from N_0); omega⟩
def ttile (t : Fin cfg0.N) : Fin 2 := ⟨t.val % 2, by omega⟩

/-- The six input blocks a grid point sees, each named at its literal shape. -/
abbrev blk0 (c : Dev nD) (t : Fin cfg0.N) : FVec Ideal S1x128x64 .f32 := iblk m c 0 t
abbrev blk1 (c : Dev nD) (t : Fin cfg0.N) : FVec Ideal S64x128 .f32 := iblk m c 1 t
abbrev blk2 (c : Dev nD) (t : Fin cfg0.N) : FVec Ideal S64x128 .f32 := iblk m c 2 t
abbrev blk3 (c : Dev nD) (t : Fin cfg0.N) : FVec Ideal S1x128 .f32 := iblk m c 3 t
abbrev blk4 (c : Dev nD) (t : Fin cfg0.N) : FVec Ideal S1x128 .f32 := iblk m c 4 t
abbrev blk5 (c : Dev nD) (t : Fin cfg0.N) : FVec Ideal S1x1 .f32 := iblk m c 5 t

/-! ## The block indices, decided once over the 32 grid points -/

theorem idx0 : ∀ t : Fin cfg0.N, win0_0.index t 0 = t.val / 2 ∧ win0_0.index t 1 = 0 ∧ win0_0.index t 2 = 0 :=
  (by decide +kernel : ∀ t : Fin grid0.N, win0_0.index t 0 = t.val / 2 ∧ win0_0.index t 1 = 0 ∧ win0_0.index t 2 = 0)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = 0 ∧ win0_2.index t 1 = t.val % 2 :=
  (by decide +kernel : ∀ t : Fin grid0.N, win0_2.index t 0 = 0 ∧ win0_2.index t 1 = t.val % 2)
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)
theorem idx4 : ∀ t : Fin cfg0.N, win0_4.index t 0 = 0 ∧ win0_4.index t 1 = t.val % 2 :=
  (by decide +kernel : ∀ t : Fin grid0.N, win0_4.index t 0 = 0 ∧ win0_4.index t 1 = t.val % 2)
theorem idx5 : ∀ t : Fin cfg0.N, win0_5.index t 0 = 0 ∧ win0_5.index t 1 = 0 :=
  (by decide +kernel : ∀ t : Fin grid0.N, win0_5.index t 0 = 0 ∧ win0_5.index t 1 = 0)

/-! ## The arrays the host lines before the region wrote -/

/-- Window 1's array is the upper 64 rows of W1. -/
theorem v0_eq (c : Dev nD) : (V m c main_v0 : S64x256.Idx → EReal)
    = extractStridedSlice S64x256 ![0, 0] (m ((c : Thread nD τ).loc main_arg2)) slices_S128x256_S64x256_0_0 := by
  show StableHlo.after hostOps0 (fun b => m (c, b)) (Proc.devRef .tc main_v0) = _
  after_results

/-- Window 2's array is the lower 64 rows of W1. -/
theorem v1_eq (c : Dev nD) : (V m c main_v1 : S64x256.Idx → EReal)
    = extractStridedSlice S64x256 ![64, 0] (m ((c : Thread nD τ).loc main_arg2)) slices_S128x256_S64x256_64_0 := by
  show StableHlo.after hostOps0 (fun b => m (c, b)) (Proc.devRef .tc main_v1) = _
  after_results

/-- Window 3's array is b1 laid out as one row. -/
theorem v2_eq (c : Dev nD) : (V m c main_v2 : S1x256.Idx → EReal)
    = shapeCast S1x256 (m ((c : Thread nD τ).loc main_arg3)) shapeCasts_S256_S1x256 := by
  show StableHlo.after hostOps0 (fun b => m (c, b)) (Proc.devRef .tc main_v2) = _
  after_results
  rfl

/-- Window 4's array is W2 transposed: one row of 256 entries. -/
theorem v3_eq (c : Dev nD) : (V m c main_v3 : S1x256.Idx → EReal)
    = transpose S1x256 [1, 0] (m ((c : Thread nD τ).loc main_arg4)) transposes_S256x1_S1x256_1_0 := by
  show StableHlo.after hostOps0 (fun b => m (c, b)) (Proc.devRef .tc main_v3) = _
  after_results

/-- Window 5's array is b2 laid out as a 1 x 1 array. -/
theorem v4_eq (c : Dev nD) : (V m c main_v4 : S1x1.Idx → EReal)
    = shapeCast S1x1 (m ((c : Thread nD τ).loc main_arg5)) shapeCasts_S1_S1x1 := by
  show StableHlo.after hostOps0 (fun b => m (c, b)) (Proc.devRef .tc main_v4) = _
  after_results
  rfl

/-! ## The blocks -/

/-- The node block is the time step's slab of the states. -/
theorem blk0_apply (c : Dev nD) (t : Fin cfg0.N) (i : Fin 128) (d : Fin 64) :
    blk0 m c t (ix3 (0 : Fin 1) i d) = m ((c : Thread nD τ).loc main_arg0) (ix3 (tstep t) i d) := by
  unfold blk0 iblk
  rw [View.read_apply]
  show V m c main_arg0 (((cfg0.win 0).blk t).view.emb (ix3 (0 : Fin 1) i d)) = _
  rw [V_main_arg0]
  obtain ⟨e0, e1, e2⟩ := idx0 t
  refine congrArg _ (funext fun a => Fin.ext ?_)
  match a with
  | ⟨0, _⟩ => show win0_0.index t 0 * 1 + 1 * 0 = t.val / 2; omega
  | ⟨1, _⟩ => show win0_0.index t 1 * 128 + 1 * i.val = i.val; omega
  | ⟨2, _⟩ => show win0_0.index t 2 * 64 + 1 * d.val = d.val; omega

/-- The first weight block is the tile's 128 columns of the upper half of W1. -/
theorem blk1_apply (c : Dev nD) (t : Fin cfg0.N) (d : Fin 64) (h : Fin 128) :
    blk1 m c t (ix2 d h) = m ((c : Thread nD τ).loc main_arg2) (ix2 (EdgeMlp.lo64 d) (EdgeMlp.hsel (ttile t) h)) := by
  unfold blk1 iblk
  rw [View.read_apply]
  show V m c main_v0 (((cfg0.win 1).blk t).view.emb (ix2 d h)) = _
  rw [v0_eq]
  obtain ⟨e0, e1⟩ := idx1 t
  refine (extractStridedSlice_apply _ _ _ _ (ix2 (EdgeMlp.lo64 d) (EdgeMlp.hsel (ttile t) h)) fun a => ?_)
  match a with
  | ⟨0, _⟩ => show d.val = 0 + (win0_1.index t 0 * 64 + 1 * d.val); omega
  | ⟨1, _⟩ => show 128 * (t.val % 2) + h.val = 0 + (win0_1.index t 1 * 128 + 1 * h.val); omega

/-- The second weight block is the tile's 128 columns of the lower half of W1. -/
theorem blk2_apply (c : Dev nD) (t : Fin cfg0.N) (d : Fin 64) (h : Fin 128) :
    blk2 m c t (ix2 d h) = m ((c : Thread nD τ).loc main_arg2) (ix2 (EdgeMlp.hi64 d) (EdgeMlp.hsel (ttile t) h)) := by
  unfold blk2 iblk
  rw [View.read_apply]
  show V m c main_v1 (((cfg0.win 2).blk t).view.emb (ix2 d h)) = _
  rw [v1_eq]
  obtain ⟨e0, e1⟩ := idx2 t
  refine (extractStridedSlice_apply _ _ _ _ (ix2 (EdgeMlp.hi64 d) (EdgeMlp.hsel (ttile t) h)) fun a => ?_)
  match a with
  | ⟨0, _⟩ => show 64 + d.val = 64 + (win0_2.index t 0 * 64 + 1 * d.val); omega
  | ⟨1, _⟩ => show 128 * (t.val % 2) + h.val = 0 + (win0_2.index t 1 * 128 + 1 * h.val); omega

/-- The bias row is the tile's 128 entries of b1. -/
theorem blk3_apply (c : Dev nD) (t : Fin cfg0.N) (h : Fin 128) :
    blk3 m c t (ix2 (0 : Fin 1) h) = m ((c : Thread nD τ).loc main_arg3) (ix1 (EdgeMlp.hsel (ttile t) h)) := by
  unfold blk3 iblk
  rw [View.read_apply]
  show V m c main_v2 (((cfg0.win 3).blk t).view.emb (ix2 (0 : Fin 1) h)) = _
  rw [v2_eq]
  obtain ⟨e0, e1⟩ := idx3 t
  refine shapeCast_apply _ _ _ (ix1 (EdgeMlp.hsel (ttile t) h)) ?_
  rw [Shape.rowMajor_val_one, Shape.rowMajor_val_two]
  show 128 * (t.val % 2) + h.val = (win0_3.index t 0 * 1 + 1 * 0) * 256 + (win0_3.index t 1 * 128 + 1 * h.val)
  omega

/-- The output weight row is the tile's 128 entries of W2's one column. -/
theorem blk4_apply (c : Dev nD) (t : Fin cfg0.N) (h : Fin 128) :
    blk4 m c t (ix2 (0 : Fin 1) h) = m ((c : Thread nD τ).loc main_arg4) (ix2 (EdgeMlp.hsel (ttile t) h) (0 : Fin 1)) := by
  unfold blk4 iblk
  rw [View.read_apply]
  show V m c main_v3 (((cfg0.win 4).blk t).view.emb (ix2 (0 : Fin 1) h)) = _
  rw [v3_eq]
  obtain ⟨e0, e1⟩ := idx4 t
  refine transpose_apply _ _ _ _ (ix2 (EdgeMlp.hsel (ttile t) h) (0 : Fin 1)) fun b => ?_
  match b with
  | ⟨0, _⟩ => show 0 = win0_4.index t 0 * 1 + 1 * 0; omega
  | ⟨1, _⟩ => show 128 * (t.val % 2) + h.val = win0_4.index t 1 * 128 + 1 * h.val; omega

/-- The output bias block is b2's one entry. -/
theorem blk5_apply (c : Dev nD) (t : Fin cfg0.N) :
    blk5 m c t (ix2 (0 : Fin 1) (0 : Fin 1)) = m ((c : Thread nD τ).loc main_arg5) (ix1 (0 : Fin 1)) := by
  unfold blk5 iblk
  rw [View.read_apply]
  show V m c main_v4 (((cfg0.win 5).blk t).view.emb (ix2 (0 : Fin 1) (0 : Fin 1))) = _
  rw [v4_eq]
  obtain ⟨e0, e1⟩ := idx5 t
  refine shapeCast_apply _ _ _ (ix1 (0 : Fin 1)) ?_
  rw [Shape.rowMajor_val_one, Shape.rowMajor_val_two]
  show 0 = (win0_5.index t 0 * 1 + 1 * 0) * 1 + (win0_5.index t 1 * 1 + 1 * 0)
  omega

end Cert.KernelIdeal.Blocks

end
-- ==== Proof.KernFinal.lean ====
import proofs.«127992_j39195871543399_1_alg».proof.Proof.Gen.KernelIdeal.Frame
import proofs.«127992_j39195871543399_1_alg».proof.Proof.Spec
import proofs.«127992_j39195871543399_1_alg».proof.Proof.KernPieces
import proofs.«127992_j39195871543399_1_alg».proof.Proof.KernBlocks
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen

variable (m : (ℓ : Loc nD τ sig) → Buf (Elt Ideal) ℓ)

open Cert.KernelIdeal.Blocks

/-! ## The argument arrays and one tile's share

The 16 x 2 grid visits, for every time step, tile 0 and then tile 1 of the 256 hidden units.  A point of tile 0
resets the output block to zero and adds tile 0's share of every edge value; the point of tile 1 that follows adds
tile 1's share and the output bias, and only then is the block written back.  So after an odd point the block holds
the edge values of its time step, and the sixteen blocks written back tile the [16, 128, 128] array. -/

/-- The argument arrays, at their literal shapes. -/
abbrev argX (c : Dev nD) : FVec Ideal S16x128x64 .f32 := m ((c : Thread nD τ).loc main_arg0)
abbrev argW1 (c : Dev nD) : FVec Ideal S128x256 .f32 := m ((c : Thread nD τ).loc main_arg2)
abbrev argB1 (c : Dev nD) : FVec Ideal S256 .f32 := m ((c : Thread nD τ).loc main_arg3)
abbrev argW2 (c : Dev nD) : FVec Ideal S256x1 .f32 := m ((c : Thread nD τ).loc main_arg4)
abbrev argB2 (c : Dev nD) : FVec Ideal S1 .f32 := m ((c : Thread nD τ).loc main_arg5)

/-- One tile's share read off the blocks of a grid point is that tile's share of the edge value at the point's time
    step: every entry of a block is the entry of its argument array at the time step's slab or the tile's columns, so
    the two sums agree term by term. -/
theorem blockTile_eq (c : Dev nD) (t : Fin cfg0.N) (i j : Fin 128) :
    EdgeMlp.blockTile (blk0 m c t) (blk1 m c t) (blk2 m c t) (blk3 m c t) (blk4 m c t) i j
      = EdgeMlp.tile (argX m c) (argW1 m c) (argB1 m c) (argW2 m c) (tstep t) i j (ttile t) := by
  unfold EdgeMlp.blockTile EdgeMlp.tile EdgeMlp.hid
  refine Finset.sum_congr rfl fun h _ => ?_
  rw [blk3_apply, blk4_apply]
  refine congrArg₂ _ (congrArg₂ _ (congrArg₂ _ (congrArg₂ _ ?_ ?_) rfl) rfl) rfl
  · exact Finset.sum_congr rfl fun d _ => by rw [blk0_apply, blk1_apply]
  · exact Finset.sum_congr rfl fun d _ => by rw [blk0_apply, blk2_apply]

/-! ## What the output block holds after each point -/

/-- After a point of tile 0 the output block holds, at (i, j), zero plus tile 0's share of the edge value. -/
theorem outs_even (c : Dev nD) (n : ℕ) (hn : n < cfg0.N) (h0 : n % 2 = 0) (i j : Fin 128) :
    outsAt0 m c n hn (ix3 (0 : Fin 1) i j)
      = EdgeMlp.zero + EdgeMlp.tile (argX m c) (argW1 m c) (argB1 m c) (argW2 m c) (tstep ⟨n, hn⟩) i j 0 := by
  have h1 : ¬n % 2 = 1 := by omega
  rw [outsAt0_A m c ⟨n, hn⟩ h0 h1]
  refine (congrFun (Pieces.out_A (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩)
    (ms0_6 ⟨n, hn⟩) (hs0_6 ⟨n, hn⟩) ((hcond0_0 ⟨n, hn⟩).mpr h0) (fun h => h1 ((hcond0_1 ⟨n, hn⟩).mp h))
    (blk0 m c ⟨n, hn⟩) (blk1 m c ⟨n, hn⟩) (blk2 m c ⟨n, hn⟩) (blk3 m c ⟨n, hn⟩) (blk4 m c ⟨n, hn⟩) (blk5 m c ⟨n, hn⟩))
    (ix3 (0 : Fin 1) i j)).trans ?_
  rw [Pieces.stepA_apply, blockTile_eq]
  have e : ttile ⟨n, hn⟩ = 0 := Fin.ext h0
  rw [e]

/-- After a point of tile 1 the output block holds, at (i, j), the edge value of the point's time step: what the point
    of tile 0 before it left (the same time step), plus tile 1's share, plus the output bias, which is the edge value
    accumulated tile by tile. -/
theorem outs_odd (c : Dev nD) (n : ℕ) (hn : n < cfg0.N) (h1 : n % 2 = 1) (i j : Fin 128) :
    outsAt0 m c n hn (ix3 (0 : Fin 1) i j)
      = EdgeMlp.edge (argX m c) (argW1 m c) (argB1 m c) (argW2 m c) (argB2 m c) (tstep ⟨n, hn⟩) i j := by
  have h0 : ¬n % 2 = 0 := by omega
  have hp : n - 1 < cfg0.N := Nat.lt_of_le_of_lt (Nat.sub_le _ _) hn
  rw [outsAt0_B m c ⟨n, hn⟩ h0 h1]
  refine (congrFun (Pieces.out_B (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩)
    (ms0_6 ⟨n, hn⟩) (hs0_6 ⟨n, hn⟩) (fun h => h0 ((hcond0_0 ⟨n, hn⟩).mp h)) ((hcond0_1 ⟨n, hn⟩).mpr h1)
    (blk0 m c ⟨n, hn⟩) (blk1 m c ⟨n, hn⟩) (blk2 m c ⟨n, hn⟩) (blk3 m c ⟨n, hn⟩) (blk4 m c ⟨n, hn⟩) (blk5 m c ⟨n, hn⟩)
    (outsAt0 m c (n - 1) hp))
    (ix3 (0 : Fin 1) i j)).trans ?_
  rw [Pieces.stepB_apply, blockTile_eq, blk5_apply, outs_even m c (n - 1) hp (by omega) i j, EdgeMlp.edge_eq_tiles]
  have e : ttile ⟨n, hn⟩ = 1 := Fin.ext h1
  have e' : tstep ⟨n - 1, hp⟩ = tstep ⟨n, hn⟩ := Fin.ext (by show (n - 1) / 2 = n / 2; omega)
  rw [e, e']

/-! ## From the blocks to the array -/

/-- The output block of point t is slab t / 2 of the array: block index (t / 2, 0, 0), decided over the grid. -/
theorem idx6 : ∀ t : Fin cfg0.N, win0_6.index t 0 = t.val / 2 ∧ win0_6.index t 1 = 0 ∧ win0_6.index t 2 = 0 :=
  (by decide +kernel : ∀ t : Fin grid0.N, win0_6.index t 0 = t.val / 2 ∧ win0_6.index t 1 = 0 ∧ win0_6.index t 2 = 0)

/-- The whole [16, 128, 128] array of edge values, of the argument arrays. -/
abbrev full (c : Dev nD) : FVec Ideal S16x128x128 .f32 :=
  EdgeMlp.Gfull (argX m c) (argW1 m c) (argB1 m c) (argW2 m c) (argB2 m c)

/-- What a point of tile 1 writes back is its time step's slab of the edge values: entry (0, i, j) of the block sits
    at (t / 2, i, j) of the array. -/
theorem flushed_eq (c : Dev nD) (t : Fin cfg0.N) (hf : (cfg0.win 6).flush t = true) :
    (dats m 0 c).flushed 6 t = ((cfg0.win 6).blk t).view.read (Elt Ideal) (full m c) := by
  have h1 : t.val % 2 = 1 := (flush0_6 t).mp hf
  obtain ⟨e0, e1, e2⟩ := idx6 t
  show (cfg0.win 6).cut (grid0.coords t) ((dats m 0 c).after 6 t) = _
  rw [after0_6]
  funext y
  obtain ⟨a, i, j, rfl⟩ : ∃ (a : Fin 1) (i j : Fin 128), y = ix3 a i j := ⟨y 0, y 1, y 2, eq_ix3 y⟩
  obtain rfl : a = 0 := Subsingleton.elim _ _
  rw [View.read_apply]
  have e : ((cfg0.win 6).blk t).view.emb (ix3 (0 : Fin 1) i j) = ix3 (tstep t) i j := by
    funext a; apply Fin.ext
    match a with
    | ⟨0, _⟩ => show win0_6.index t 0 * 1 + 1 * 0 = t.val / 2; omega
    | ⟨1, _⟩ => show win0_6.index t 1 * 128 + 1 * i.val = i.val; omega
    | ⟨2, _⟩ => show win0_6.index t 2 * 128 + 1 * j.val = j.val; omega
  rw [e]
  exact outs_odd m c t.val t.isLt h1 i j

/-- An entry of the array lies in the block of point t exactly when each coordinate lies in the block's range. -/
theorem mem_blk (t : Fin cfg0.N) (o : S16x128x128.Idx) :
    o ∈ ((cfg0.win 6).blk t).view.set ↔ ∀ a : Fin 3, win0_6.index t a * S1x128x128.size a ≤ (o a).val ∧ (o a).val < win0_6.index t a * S1x128x128.size a + S1x128x128.size a := by
  show o ∈ ((View.whole main_v5).slice (win0_6.rect t)).set ↔ _
  rw [View.set_slice_whole, Rect.mem_set_unit]
  exact Iff.rfl

/-- The region's result array [16, 128, 128] ends holding the edge value of every ordered pair: the entry (s, i, j) is
    covered by the block written back after point 2 s + 1, the point of tile 1 of time step s. -/
theorem final6 (c : Dev nD) :
    (dats (F := Ideal) m 0 c).arrAt 6 cfg0.N
      = (EdgeMlp.Gfull (m ((c : Thread nD τ).loc main_arg0)) (m ((c : Thread nD τ).loc main_arg2)) (m ((c : Thread nD τ).loc main_arg3))
          (m ((c : Thread nD τ).loc main_arg4)) (m ((c : Thread nD τ).loc main_arg5)) : Buf (Elt Ideal) ((c : Thread nD τ).loc main_v5)) := by
  refine (dats m 0 c).arrAt_eq_of_cover 6 (full m c) (flushed_eq m c) fun o => ?_
  have ho : (o 0).val < 16 := (o 0).isLt
  have ho1 : (o 1).val < 128 := (o 1).isLt
  have ho2 : (o 2).val < 128 := (o 2).isLt
  have hN : cfg0.N = 32 := N_0
  refine ⟨⟨2 * (o 0).val + 1, by omega⟩, (flush0_6 _).mpr (by show (2 * (o 0).val + 1) % 2 = 1; omega), ?_⟩
  obtain ⟨e0, e1, e2⟩ := idx6 ⟨2 * (o 0).val + 1, by omega⟩
  rw [mem_blk]
  intro a
  match a with
  | ⟨0, _⟩ => show win0_6.index _ 0 * 1 ≤ (o 0).val ∧ (o 0).val < win0_6.index _ 0 * 1 + 1; rw [e0]; show (2 * (o 0).val + 1) / 2 * 1 ≤ (o 0).val ∧ (o 0).val < (2 * (o 0).val + 1) / 2 * 1 + 1; omega
  | ⟨1, _⟩ => show win0_6.index _ 1 * 128 ≤ (o 1).val ∧ (o 1).val < win0_6.index _ 1 * 128 + 128; rw [e1]; omega
  | ⟨2, _⟩ => show win0_6.index _ 2 * 128 ≤ (o 2).val ∧ (o 2).val < win0_6.index _ 2 * 128 + 128; rw [e2]; omega

end Cert.KernelIdeal.Final

end
-- ==== Proof.KernTail.lean ====
/-
  The host lines after the region, read as one function of the region's array.

  After the region the program builds a table of 32-bit words: for row i and kept position k the word of
  k + [i ≤ k], the column of entry k of row i once the diagonal is dropped.  The called function then reads the
  region's array [16, 128, 128] along its last axis at those words: a word is kept when it is not negative, the
  start index is read signed and clamped into the 128 columns, and a range test 0 ≤ word ≤ 127 chooses between the
  value read and a not-a-number constant.  Every word lies in 0 … 127, so the wrap, the clamp and the test all keep
  the value read: entry (t, i, k) of the result is entry (t, i, k + [i ≤ k]) of the region's array.
-/
import proofs.«127992_j39195871543399_1_alg».proof.Proof.Gen.KernelIdeal.Frame
import proofs.«127992_j39195871543399_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws
import Idealize.ShloMosaic.Lib.StableHlo.Predicate

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

variable (m : (ℓ : Loc nD τ sig) → Buf (Elt Ideal) ℓ)

/-! ## The index words

The host lines build, for every row i and kept position k, the 32-bit word of the column k + [i ≤ k]; the called function
reads the region's array at that column. -/

/-- The word table [128, 127]: position k plus the widened bit of "k ≥ i". -/
def idxW : IVec S128x127 32 :=
  addi (broadcastInDim S128x127 ![0, 1] bcast_S1x127_S128x127_0_1 (broadcastInDim S1x127 ![1] bcast_S127_S1x127_1 (iotaInDim S127 32 0)))
    (extui 32
      (cmpi .sge (broadcastInDim S128x127 ![0, 1] bcast_S1x127_S128x127_0_1 (broadcastInDim S1x127 ![1] bcast_S127_S1x127_1 (iotaInDim S127 32 0)))
        (broadcastInDim S128x127 ![0, 1] bcast_S128x1_S128x127_0_1 (broadcastInDim S128x1 ![0] bcast_S128_S128x1_0 (iotaInDim S128 32 0))))
      natLt_1_32)

/-- The same table repeated over the 16 time steps. -/
def idx3 : IVec S16x128x127 32 :=
  broadcastInDim S16x128x127 ![0, 1, 2] bcast_S1x128x127_S16x128x127_0_1_2 (broadcastInDim S1x128x127 ![1, 2] bcast_S128x127_S1x128x127_1_2 idxW)

/-- Negative words wrapped by 128 (none is negative). -/
def sel3 : IVec S16x128x127 32 :=
  select (cmpi .slt idx3 (broadcastInDim S16x128x127 ![] bcast_S_S16x128x127 (constantI S_ 32 0#32)))
    (addi idx3 (broadcastInDim S16x128x127 ![] bcast_S_S16x128x127 (constantI S_ 32 128#32))) idx3

/-- The start indices [16, 128, 127, 1]. -/
def idx4 : IVec S16x128x127x1 32 := fun i => shapeCast S16x128x127x1 sel3 shapeCasts_S16x128x127_S16x128x127x1 i

/-- The range test 0 ≤ word ≤ 127, and-reduced over the unit axis. -/
def inRange : IVec S16x128x127 1 :=
  Host.reduce IntOp.andi
    (andi (cmpi .sge idx4 (broadcastInDim S16x128x127x1 ![] bcast_S_S16x128x127x1 (constantI S_ 32 0#32)))
      (cmpi .sle idx4 (broadcastInDim S16x128x127x1 ![0, 1, 2, 3] bcast_S1x1x1x1_S16x128x127x1_0_1_2_3
        (broadcastInDim S1x1x1x1 ![3] bcast_S1_S1x1x1x1_3 (constantI S1 32 127#32)))))
    (constantI S_ 1 1#1) reducesTo_S16x128x127x1_S16x128x127_d3 h_S_

section Fn
variable {F : FTy → Type} [FloatOps F]

/-- The host lines after the region as one function of the region's array. -/
def tailFn (Y : FVec F S16x128x128 .f32) : FVec F S16x128x127 .f32 :=
  select inRange (Host.gather gather_S16x128x128_S16x128x127x1_S16x128x127_n_2_01_01_2_3_111 Y idx4)
    (broadcastInDim S16x128x127 ![] bcast_S_S16x128x127 (constant (F := F) S_ .f32 0x7FC00000#32))

end Fn

open Idealize.ShloMosaic.StableHlo.Predicate in
/-- Entry (i, k) of the word table is the word of the kept column. -/
theorem idxW_apply (i : Fin 128) (k : Fin 127) : idxW (ix2 i k) = BitVec.ofNat 32 (EdgeMlp.col i k).val := by
  have hk := k.isLt
  have hi := i.isLt
  show IntOp.addi (BitVec.ofNat 32 k.val) ((IntOp.cmpi .sge (BitVec.ofNat 32 k.val) (BitVec.ofNat 32 i.val)).setWidth 32) = _
  apply BitVec.eq_of_toNat_eq
  have hc : (IntOp.cmpi .sge (BitVec.ofNat 32 k.val) (BitVec.ofNat 32 i.val) = 1#1) ↔ i.val ≤ k.val := by
    rw [sge_iff_toNat (by rw [BitVec.toNat_ofNat]; omega) (by rw [BitVec.toNat_ofNat]; omega)]
    rw [BitVec.toNat_ofNat, BitVec.toNat_ofNat]; omega
  show (BitVec.ofNat 32 k.val + _).toNat = _
  rw [BitVec.toNat_add, toNat_setWidth_bit, BitVec.toNat_ofNat, BitVec.toNat_ofNat]
  unfold EdgeMlp.col
  simp only [hc]
  split <;> omega

theorem idx3_apply (t : Fin 16) (i : Fin 128) (k : Fin 127) : idx3 (ix3 t i k) = idxW (ix2 i k) := rfl

open Idealize.ShloMosaic.StableHlo.Predicate in
/-- No word is negative, so the wrap keeps it. -/
theorem sel3_apply (t : Fin 16) (i : Fin 128) (k : Fin 127) : sel3 (ix3 t i k) = BitVec.ofNat 32 (EdgeMlp.col i k).val := by
  have hc := (EdgeMlp.col i k).isLt
  show Scalar.select (IntOp.cmpi .slt (idx3 (ix3 t i k)) 0#32) (IntOp.addi (idx3 (ix3 t i k)) 128#32) (idx3 (ix3 t i k)) = _
  rw [idx3_apply, idxW_apply]
  have hn : ¬ IntOp.cmpi .slt (BitVec.ofNat 32 (EdgeMlp.col i k).val) 0#32 = 1#1 := by
    rw [slt_iff_toNat (by rw [BitVec.toNat_ofNat]; omega) (by decide)]
    exact Nat.not_lt_zero _
  exact if_neg hn

/-- The start index of (t, i, k) is that word: the cast only adds a unit axis. -/
theorem idx4_apply (t : Fin 16) (i : Fin 128) (k : Fin 127) (u : Fin 1) :
    idx4 (ix4 t i k u) = BitVec.ofNat 32 (EdgeMlp.col i k).val := by
  rw [← sel3_apply t i k]
  show shapeCast S16x128x127x1 sel3 shapeCasts_S16x128x127_S16x128x127x1 (ix4 t i k u) = _
  refine shapeCast_apply sel3 _ _ _ ?_
  have hu : u.val = 0 := by omega
  rw [Shape.rowMajor_val_four, Shape.rowMajor_val_three]
  show (t.val * 128 + i.val) * 127 + k.val = ((t.val * 128 + i.val) * 127 + k.val) * 1 + u.val
  omega

/-- And-ing ones onto one leaves one, over any list. -/
theorem foldl_andi_one {β : Type} (l : List β) (g : β → BitVec 1) (hg : ∀ n, g n = 1#1) :
    l.foldl (fun r n => IntOp.andi r (g n)) 1#1 = 1#1 := by
  induction l with
  | nil => rfl
  | cons a l ih => rw [List.foldl_cons, hg a]; exact ih

open Idealize.ShloMosaic.StableHlo.Predicate in
/-- Every start index passes the range test 0 ≤ word ≤ 127. -/
theorem mask_apply (q : S16x128x127x1.Idx) :
    (andi (cmpi .sge idx4 (broadcastInDim S16x128x127x1 ![] bcast_S_S16x128x127x1 (constantI S_ 32 0#32)))
      (cmpi .sle idx4 (broadcastInDim S16x128x127x1 ![0, 1, 2, 3] bcast_S1x1x1x1_S16x128x127x1_0_1_2_3
        (broadcastInDim S1x1x1x1 ![3] bcast_S1_S1x1x1x1_3 (constantI S1 32 127#32))))) q = 1#1 := by
  obtain ⟨t, i, k, u, rfl⟩ : ∃ (t : Fin 16) (i : Fin 128) (k : Fin 127) (u : Fin 1), q = ix4 t i k u :=
    ⟨q 0, q 1, q 2, q 3, eq_ix4 q⟩
  have hc := (EdgeMlp.col i k).isLt
  show IntOp.andi (IntOp.cmpi .sge (idx4 (ix4 t i k u)) 0#32) (IntOp.cmpi .sle (idx4 (ix4 t i k u)) 127#32) = 1#1
  rw [idx4_apply]
  have h1 : IntOp.cmpi .sge (BitVec.ofNat 32 (EdgeMlp.col i k).val) 0#32 = 1#1 :=
    (sge_iff_toNat (by rw [BitVec.toNat_ofNat]; omega) (by decide)).mpr (Nat.zero_le _)
  have h2 : IntOp.cmpi .sle (BitVec.ofNat 32 (EdgeMlp.col i k).val) 127#32 = 1#1 :=
    (sle_iff_toNat (by rw [BitVec.toNat_ofNat]; omega) (by decide)).mpr (by
      rw [BitVec.toNat_ofNat]; show _ ≤ 127; omega)
  rw [h1, h2]; rfl

/-- So the reduced test is true everywhere. -/
theorem inRange_apply (j : S16x128x127.Idx) : inRange j = 1#1 := by
  unfold inRange Host.reduce
  exact foldl_andi_one _ _ (fun n => mask_apply _)

section Gather
variable {α : Type}

/-- The gather read at (t, i, k): the operand at (t, i, the start index read signed and clamped into the 128 columns).
    Axes 0 and 1 are batching axes shared with the start indices; axis 2 is collapsed and start-indexed. -/
theorem gather_apply (Y : S16x128x128.Idx → α) (idx : IVec S16x128x127x1 32) (t : Fin 16) (i : Fin 128) (k : Fin 127) :
    Host.gather gather_S16x128x128_S16x128x127x1_S16x128x127_n_2_01_01_2_3_111 Y idx (ix3 t i k)
      = Y (ix3 t i ⟨min (idx (ix4 t i k (0 : Fin 1))).toInt.toNat 127, by omega⟩) := by
  unfold Host.gather
  congr 1
  funext a
  refine Fin.ext ?_
  match a with
  | ⟨0, _⟩ =>
    show gather_S16x128x128_S16x128x127x1_S16x128x127_n_2_01_01_2_3_111.start (ix3 t i k) idx 0
      + gather_S16x128x128_S16x128x127x1_S16x128x127_n_2_01_01_2_3_111.batchCoord (ix3 t i k) 0
      + gather_S16x128x128_S16x128x127x1_S16x128x127_n_2_01_01_2_3_111.offCoord (ix3 t i k) 0 = t.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨1, _⟩ =>
    show gather_S16x128x128_S16x128x127x1_S16x128x127_n_2_01_01_2_3_111.start (ix3 t i k) idx 1
      + gather_S16x128x128_S16x128x127x1_S16x128x127_n_2_01_01_2_3_111.batchCoord (ix3 t i k) 1
      + gather_S16x128x128_S16x128x127x1_S16x128x127_n_2_01_01_2_3_111.offCoord (ix3 t i k) 1 = i.val
    rw [GatherDims.start_batching _ _ _ _ (by decide), GatherDims.offCoord_eq_zero _ _ _ (by decide)]
    simp only [Nat.zero_add, Nat.add_zero]
    unfold GatherDims.batchCoord
    rw [dif_pos (by decide)]
    rfl
  | ⟨2, _⟩ =>
    have hsi : gather_S16x128x128_S16x128x127x1_S16x128x127_n_2_01_01_2_3_111.siIdx (ix3 t i k)
        ⟨List.idxOf (2 : Fin 3) gather_S16x128x128_S16x128x127x1_S16x128x127_n_2_01_01_2_3_111.startIndexMap,
          List.idxOf_lt_length_iff.2 (List.mem_singleton.mpr rfl)⟩ = ix4 t i k (0 : Fin 1) := by
      funext b; refine Fin.ext ?_
      match b with
      | ⟨0, _⟩ => rfl
      | ⟨1, _⟩ => rfl
      | ⟨2, _⟩ => rfl
      | ⟨3, _⟩ => rfl
    show gather_S16x128x128_S16x128x127x1_S16x128x127_n_2_01_01_2_3_111.start (ix3 t i k) idx 2
      + gather_S16x128x128_S16x128x127x1_S16x128x127_n_2_01_01_2_3_111.batchCoord (ix3 t i k) 2
      + gather_S16x128x128_S16x128x127x1_S16x128x127_n_2_01_01_2_3_111.offCoord (ix3 t i k) 2 = _
    rw [GatherDims.batchCoord_eq_zero _ _ _ (by decide), GatherDims.offCoord_eq_zero _ _ _ (by decide)]
    simp only [Nat.add_zero]
    unfold GatherDims.start
    rw [dif_pos (show (2 : Fin 3) ∈ gather_S16x128x128_S16x128x127x1_S16x128x127_n_2_01_01_2_3_111.startIndexMap from List.mem_singleton.mpr rfl)]
    rw [hsi]
    rfl

end Gather

open Idealize.ShloMosaic.StableHlo.Predicate in
/-- The host lines read at (t, i, k): the test passes, the gather reads column col i k (the clamp keeps a word below 128). -/
theorem tailFn_apply (Y : FVec Ideal S16x128x128 .f32) (t : Fin 16) (i : Fin 128) (k : Fin 127) :
    tailFn (F := Ideal) Y (ix3 t i k) = Y (ix3 t i (EdgeMlp.col i k)) := by
  have hc := (EdgeMlp.col i k).isLt
  unfold tailFn
  rw [select_apply, inRange_apply, select_one, gather_apply]
  refine congrArg Y (congrArg (ix3 t i) (Fin.ext ?_))
  show min (idx4 (ix4 t i k (0 : Fin 1))).toInt.toNat 127 = (EdgeMlp.col i k).val
  rw [idx4_apply, toInt_ofNat_small _ (by omega), Int.toNat_natCast]
  omega
set_option maxHeartbeats 4000000 in
/-- The lines after the region, composed: each line's result is its operation applied to the results of the lines before
    it, and the array the gather reads is the one the region leaves (window 6's). Together they are `tailFn` of that array. -/
theorem tail_fn (c : Dev nD) (Y : Buf (Elt Ideal) ((c : Thread nD τ).loc main_v5))
    (hY : (dats (F := Ideal) m 0 c).arrAt 6 cfg0.N = Y) :
    Pipeline.afterTail₀ cfgs (dats (F := Ideal) m) 0 (V0 m) [hostOps1, hostOps1_1] c main_v19
      = (tailFn (F := Ideal) Y : Buf (Elt Ideal) ((c : Thread nD τ).loc main_v19)) := by
  have hW : Pipeline.withArrays (cfgs 0).spec c (V0 m c) (fun w => (dats (F := Ideal) m 0 c).arrAt w (cfgs 0).N)
      (Proc.devRef .tc main_v5) = Y := (Pipeline.withArrays_arr spec0 launch0.win.arr_inj c _ _ 6).trans hY
  unfold Pipeline.afterTail₀
  simp only [hostOps1, hostOps1_1, List.flatten_cons, List.flatten_nil, List.append_nil, List.cons_append, List.nil_append]
  after_results_simp
  simp only [StableHlo.TRef.ofBuf, StableHlo.TRef.toBuf, cast_eq]
  rw [hW]
  rfl

/-- The host lines after the region drop the diagonal: entry (t, i, k) of the result is entry (t, i, col i k) of the
    region's array, whatever that array holds. -/
theorem tail_eq (c : Dev nD) (Y : Buf (Elt Ideal) ((c : Thread nD τ).loc main_v5))
    (hY : (dats (F := Ideal) m 0 c).arrAt 6 cfg0.N = Y) :
    Pipeline.afterTail₀ cfgs (dats (F := Ideal) m) 0 (V0 m) [hostOps1, hostOps1_1] c main_v19
      = ((fun o => Y (ix3 (o 0) (o 1) (EdgeMlp.col (o 1) (o 2)))) : Buf (Elt Ideal) ((c : Thread nD τ).loc main_v19)) := by
  rw [tail_fn m c Y hY]
  refine funext fun (o : S16x128x127.Idx) => ?_
  obtain ⟨t, i, k, rfl⟩ : ∃ (t : Fin 16) (i : Fin 128) (k : Fin 127), o = ix3 t i k := ⟨o 0, o 1, o 2, eq_ix3 o⟩
  exact tailFn_apply Y t i k

end Cert.KernelIdeal.Tail

end
-- ==== Proof.KernValue.lean ====
import proofs.«127992_j39195871543399_1_alg».proof.Proof.Gen.KernelIdeal.Frame
import proofs.«127992_j39195871543399_1_alg».proof.Proof.Spec
import proofs.«127992_j39195871543399_1_alg».proof.Proof.KernFinal
import proofs.«127992_j39195871543399_1_alg».proof.Proof.KernTail
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- The edge network of core c's argument arrays, without the diagonal: what the program's result array ends holding. -/
abbrev result (c : Dev nD) : Buf (Elt Ideal) ((c : Thread nD τ).loc main_v19) :=
  EdgeMlp.G (m ((c : Thread nD τ).loc main_arg0)) (m ((c : Thread nD τ).loc main_arg2)) (m ((c : Thread nD τ).loc main_arg3))
    (m ((c : Thread nD τ).loc main_arg4)) (m ((c : Thread nD τ).loc main_arg5))

/-- Dropping the diagonal of the all-pairs array gives the result: entry (t, i, k) of the one is entry (t, i, col i k) of
    the other, by definition of both. -/
theorem drop_diag (c : Dev nD) :
    ((fun o => (EdgeMlp.Gfull (m ((c : Thread nD τ).loc main_arg0)) (m ((c : Thread nD τ).loc main_arg2)) (m ((c : Thread nD τ).loc main_arg3))
        (m ((c : Thread nD τ).loc main_arg4)) (m ((c : Thread nD τ).loc main_arg5)) : Buf (Elt Ideal) ((c : Thread nD τ).loc main_v5))
          (ix3 (o 0) (o 1) (EdgeMlp.col (o 1) (o 2)))) : Buf (Elt Ideal) ((c : Thread nD τ).loc main_v19)) = result m c := by
  funext o
  rfl

/-- The program's run, read: every weakly fair execution ends with the result array at the edge network of the
    arguments (the region leaves all pairs, the host lines after it drop the diagonal) and the arguments unchanged. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v19 (Pipeline.mem_restRefs_of main_v19 (by decide) (by decide))).trans
        ((Cert.KernelIdeal.Tail.tail_eq m c _ (Cert.KernelIdeal.Final.final6 m c)).trans (drop_diag m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.RunValue

end
-- ==== Proof.RefValue.lean ====
/-
  The reference network at one result entry.

  The reference flattens the node array to a table of 2048 rows (row t·128 + j is node j at time step t), lists the
  260096 ordered pairs of distinct nodes of one time step in row-major order (edge number (t·128 + i)·127 + k is entry k
  of row i at time step t), gathers for every edge the source row and the target row of the table, joins the two
  64-vectors into one 128-vector, and applies the two affine layers with the rectifier between them.

  Three things are read off here.  The integer tables: at edge (t, i, k) the source row number is t·128 + i and the
  target row number is t·128 + c, where c = k below the diagonal and k + 1 from it on; both are below 2048, so the
  sign normalisation and the clamp of the gather leave them as they are.  The gather and the join: the joined vector
  holds the source node's 64 entries and then the target node's.  The sums: the product of the joined vector with
  the 128 rows of W1 is the sum over the upper 64 rows plus the sum over the lower 64 rows, which is how the edge
  network is written; everything else matches term by term.
-/
import proofs.«127992_j39195871543399_1_alg».proof.Defs
import proofs.«127992_j39195871543399_1_alg».proof.Proof.Gen.ReferenceIdeal.Run
import proofs.«127992_j39195871543399_1_alg».proof.Proof.Gen.ReferenceIdeal.Read
import proofs.«127992_j39195871543399_1_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The row gather's dimension numbers. -/
private abbrev gd := gather_S2048x64_S260096x1_S260096x64_1_0_n_n_0_1_164

/-- The gather of rows of a [2048, 64] table at a [260096, 1] column of start indices, read at (e, d): row
    "start index e, read signed and clamped into the table", column d.  Axis 0 is collapsed and start-indexed,
    axis 1 is the one offset axis and carries the result's column. -/
private theorem gather_row {α : Type} (x : S2048x64.Idx → α) (idx : IVec S260096x1 32) (e : Fin 260096) (d : Fin 64) :
    Host.gather gd x idx (ix2 e d) = x (ix2 ⟨min (idx (ix2 e (0 : Fin 1))).toInt.toNat 2047, by omega⟩ d) := by
  unfold Host.gather
  congr 1
  funext a
  refine Fin.ext ?_
  match a with
  | ⟨0, _⟩ =>
    show gd.start (ix2 e d) idx 0 + gd.batchCoord (ix2 e d) 0 + gd.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gd.startIndexMap from List.mem_singleton.mpr rfl)]
    have hsi : gd.siIdx (ix2 e d) ⟨List.idxOf (0 : Fin 2) gd.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gd.start (ix2 e d) idx 1 + gd.batchCoord (ix2 e d) 1 + gd.offCoord (ix2 e d) 1 = _
    rw [GatherDims.batchCoord_eq_zero _ _ _ List.not_mem_nil]
    unfold GatherDims.start
    rw [dif_neg (show ¬ (1 : Fin 2) ∈ gd.startIndexMap by decide)]
    unfold GatherDims.offCoord
    rw [dif_pos (show (1 : Fin 2) ∈ gd.sKept by decide)]
    simp only [Nat.add_zero, Nat.zero_add]
    rfl

/-- When the start index at e is the word of a row number n of the table, the clamp changes nothing: the gather
    reads row n. -/
private theorem gather_at {α : Type} (x : S2048x64.Idx → α) (idx : IVec S260096x1 32) (e : Fin 260096) (d : Fin 64)
    (n : Fin 2048) (h : idx (ix2 e (0 : Fin 1)) = BitVec.ofNat 32 n.val) :
    Host.gather gd x idx (ix2 e d) = x (ix2 n d) := by
  rw [gather_row]
  congr 1
  funext a
  match a with
  | ⟨0, _⟩ =>
    refine Fin.ext ?_
    have hn := n.isLt
    show min (idx (ix2 e (0 : Fin 1))).toInt.toNat 2047 = n.val
    rw [h, StableHlo.Predicate.toInt_ofNat_small _ (by omega), Int.toNat_natCast]
    omega
  | ⟨1, _⟩ => rfl

/-- The flat edge number of entry k of row i at time step t. -/
private abbrev eno (t : Fin 16) (i : Fin 128) (k : Fin 127) : Fin 260096 :=
  ⟨(t.val * 128 + i.val) * 127 + k.val, by have := t.isLt; have := i.isLt; have := k.isLt; omega⟩

/-- A signed "at least" between two small numbers, widened to a word, is 1 or 0 as the numbers compare. -/
private theorem ge_word (a b : Nat) (ha : a < 2 ^ 31) (hb : b < 2 ^ 31) :
    (BitVec.setWidth 32 (IntOp.cmpi .sge (BitVec.ofNat 32 a) (BitVec.ofNat 32 b))).toNat = if b ≤ a then 1 else 0 := by
  rw [StableHlo.Predicate.toNat_setWidth_bit]
  have h := StableHlo.Predicate.sge_iff_toNat (a := BitVec.ofNat 32 a) (b := BitVec.ofNat 32 b)
    (by rw [BitVec.toNat_ofNat]; omega) (by rw [BitVec.toNat_ofNat]; omega)
  rw [BitVec.toNat_ofNat, BitVec.toNat_ofNat, Nat.mod_eq_of_lt (by omega), Nat.mod_eq_of_lt (by omega)] at h
  by_cases hab : b ≤ a
  · rw [if_pos (h.mpr hab), if_pos hab]
  · rw [if_neg (fun hh => hab (h.mp hh)), if_neg hab]

/-- The source node of edge (t, i, k), before the sign normalisation: the word of t·128 + i.  The edge number splits
    as t·16256 + (i·127 + k); the row table repeats i along each row of 127 entries and the offset table adds t·128. -/
private theorem row_word (t : Fin 16) (i : Fin 128) (k : Fin 127) :
    val_main_v23 (F := Ideal) (ix1 (eno t i k)) = BitVec.ofNat 32 (t.val * 128 + i.val) := by
  rw [val_main_v23_apply, val_main_v22_apply, val_main_v20_apply, val_main_v19_apply, val_main_v14_apply, val_main_v13_apply,
    val_main_v2_apply, val_main_v21_apply, val_main_v18_apply, val_main_v17_apply, val_main_v15_apply, val_main_v16_apply,
    val_main_c_apply]
  have ht := t.isLt; have hi := i.isLt; have hk := k.isLt
  have e2 : ((t.val * 128 + i.val) * 127 + k.val) % 16256 / 127 = i.val := by omega
  have e3 : ((t.val * 128 + i.val) * 127 + k.val) / 16256 = t.val := by omega
  show BitVec.ofNat 32 (((t.val * 128 + i.val) * 127 + k.val) % 16256 / 127)
    + BitVec.ofNat 32 (((t.val * 128 + i.val) * 127 + k.val) / 16256) * 128#32 = _
  rw [e2, e3]
  apply BitVec.eq_of_toNat_eq
  simp only [BitVec.toNat_add, BitVec.toNat_mul, BitVec.toNat_ofNat]
  omega

/-- The target node of edge (t, i, k), before the sign normalisation: the word of t·128 + (k, or k + 1 from the
    diagonal on).  The column table is k plus the widened bit "k ≥ i". -/
private theorem col_word (t : Fin 16) (i : Fin 128) (k : Fin 127) :
    val_main_v28 (F := Ideal) (ix1 (eno t i k)) = BitVec.ofNat 32 (t.val * 128 + (EdgeMlp.col i k).val) := by
  rw [val_main_v28_apply, val_main_v27_apply, val_main_v25_apply, val_main_v24_apply, val_main_v12_apply, val_main_v11_apply,
    val_main_v10_apply, val_main_v3_apply, val_main_v1_apply, val_main_v9_apply, val_main_v8_apply, val_main_v6_apply, val_main_v4_apply,
    val_main_v1_apply, val_main_v7_apply, val_main_v5_apply, val_main_v2_apply,
    val_main_v26_apply, val_main_v18_apply, val_main_v17_apply, val_main_v15_apply, val_main_v16_apply,
    val_main_c_apply]
  have ht := t.isLt; have hi := i.isLt; have hk := k.isLt
  have e1 : ((t.val * 128 + i.val) * 127 + k.val) % 16256 % 127 = k.val := by omega
  have e2 : ((t.val * 128 + i.val) * 127 + k.val) % 16256 / 127 = i.val := by omega
  have e3 : ((t.val * 128 + i.val) * 127 + k.val) / 16256 = t.val := by omega
  show (BitVec.ofNat 32 (((t.val * 128 + i.val) * 127 + k.val) % 16256 % 127)
      + BitVec.setWidth 32 (IntOp.cmpi .sge (BitVec.ofNat 32 (((t.val * 128 + i.val) * 127 + k.val) % 16256 % 127))
          (BitVec.ofNat 32 (((t.val * 128 + i.val) * 127 + k.val) % 16256 / 127))))
    + BitVec.ofNat 32 (((t.val * 128 + i.val) * 127 + k.val) / 16256) * 128#32 = _
  rw [e1, e2, e3]
  apply BitVec.eq_of_toNat_eq
  have hc := ge_word k.val i.val (by omega) (by omega)
  have hcol : (EdgeMlp.col i k).val = k.val + (if i.val ≤ k.val then 1 else 0) := rfl
  simp only [BitVec.toNat_add, BitVec.toNat_mul, BitVec.toNat_ofNat, hc, hcol]
  split <;> omega

/-- A small non-negative word is not below zero, so the sign normalisation keeps it. -/
private theorem keep_word (n : Nat) (hn : n < 2 ^ 31) (a : BitVec 32) :
    Scalar.select (IntOp.cmpi .slt (BitVec.ofNat 32 n) 0#32) a (BitVec.ofNat 32 n) = BitVec.ofNat 32 n := by
  have h := StableHlo.Predicate.slt_iff_toNat (a := BitVec.ofNat 32 n) (b := 0#32)
    (by rw [BitVec.toNat_ofNat]; omega) (by decide)
  exact if_neg (fun hh => Nat.not_lt_zero _ (h.mp hh))

/-- The start index of the first gather at edge (t, i, k). -/
private theorem row_start (t : Fin 16) (i : Fin 128) (k : Fin 127) :
    val_main_v34 (F := Ideal) (ix2 (eno t i k) (0 : Fin 1)) = BitVec.ofNat 32 (t.val * 128 + i.val) := by
  have hx : idx_main_v34 (ix2 (eno t i k) (0 : Fin 1)) = ix1 (eno t i k) := by
    funext a; match a with | ⟨0, _⟩ => rfl
  have ht := t.isLt; have hi := i.isLt
  rw [val_main_v34_apply, hx, val_main_v33_apply, val_main_v30_apply, val_main_v29_apply, val_main_c_0_apply, row_word]
  exact keep_word _ (by omega) _

/-- The start index of the second gather at edge (t, i, k). -/
private theorem col_start (t : Fin 16) (i : Fin 128) (k : Fin 127) :
    val_main_v41 (F := Ideal) (ix2 (eno t i k) (0 : Fin 1)) = BitVec.ofNat 32 (t.val * 128 + (EdgeMlp.col i k).val) := by
  have hx : idx_main_v41 (ix2 (eno t i k) (0 : Fin 1)) = ix1 (eno t i k) := by
    funext a; match a with | ⟨0, _⟩ => rfl
  have ht := t.isLt; have hc := (EdgeMlp.col i k).isLt
  rw [val_main_v41_apply, hx, val_main_v40_apply, val_main_v37_apply, val_main_v36_apply, val_main_c_2_apply, col_word]
  exact keep_word _ (by omega) _

/-- Row t·128 + j of the flattened node table is node j at time step t. -/
private theorem node_row (x0 : FVec Ideal S16x128x64 .f32) (t : Fin 16) (j : Fin 128) (d : Fin 64) :
    val_main_v0 (F := Ideal) x0 (ix2 (⟨t.val * 128 + j.val, by have := t.isLt; have := j.isLt; omega⟩ : Fin 2048) d) = x0 (ix3 t j d) := by
  rw [val_main_v0_apply]
  congr 1
  have ht := t.isLt; have hj := j.isLt; have hd := d.isLt
  funext a
  match a with
  | ⟨0, _⟩ => exact Fin.ext (show ((t.val * 128 + j.val) * 64 + d.val) / 8192 = t.val by omega)
  | ⟨1, _⟩ => exact Fin.ext (show ((t.val * 128 + j.val) * 64 + d.val) / 64 % 128 = j.val by omega)
  | ⟨2, _⟩ => exact Fin.ext (show ((t.val * 128 + j.val) * 64 + d.val) % 64 = d.val by omega)

/-- The first gathered array at (edge (t, i, k), d): the source node's vector. -/
private theorem src_apply (x0 : FVec Ideal S16x128x64 .f32) (t : Fin 16) (i : Fin 128) (k : Fin 127) (d : Fin 64) :
    val_main_v35 (F := Ideal) x0 (ix2 (eno t i k) d) = x0 (ix3 t i d) := by
  unfold val_main_v35
  rw [gather_at _ _ _ _ ⟨t.val * 128 + i.val, by have := t.isLt; have := i.isLt; omega⟩ (row_start t i k)]
  exact node_row x0 t i d

/-- The second gathered array at (edge (t, i, k), d): the target node's vector. -/
private theorem tgt_apply (x0 : FVec Ideal S16x128x64 .f32) (t : Fin 16) (i : Fin 128) (k : Fin 127) (d : Fin 64) :
    val_main_v42 (F := Ideal) x0 (ix2 (eno t i k) d) = x0 (ix3 t (EdgeMlp.col i k) d) := by
  unfold val_main_v42
  rw [gather_at _ _ _ _ ⟨t.val * 128 + (EdgeMlp.col i k).val, by have := t.isLt; have := (EdgeMlp.col i k).isLt; omega⟩ (col_start t i k)]
  exact node_row x0 t (EdgeMlp.col i k) d

/-- The concatenated pair at a column of its first half reads the first gathered array. -/
private theorem pair_lo (x0 : FVec Ideal S16x128x64 .f32) (e : Fin 260096) (d : Fin 64) :
    val_main_v43 (F := Ideal) x0 (ix2 e (EdgeMlp.lo64 d)) = val_main_v35 (F := Ideal) x0 (ix2 e d) := by
  unfold val_main_v43
  exact concatenate_pair_apply_left (s₁ := S260096x64) (s₂ := S260096x64) (1 : Fin 2) _ _ _ (ix2 e (EdgeMlp.lo64 d)) rfl (ix2 e d)
    (fun b => match b with | ⟨0, _⟩ => rfl | ⟨1, _⟩ => rfl)

/-- At a column of its second half it reads the second gathered array, 64 columns earlier. -/
private theorem pair_hi (x0 : FVec Ideal S16x128x64 .f32) (e : Fin 260096) (d : Fin 64) :
    val_main_v43 (F := Ideal) x0 (ix2 e (EdgeMlp.hi64 d)) = val_main_v42 (F := Ideal) x0 (ix2 e d) := by
  unfold val_main_v43
  exact concatenate_pair_apply_right (s₁ := S260096x64) (s₂ := S260096x64) (1 : Fin 2) _ _ _ (ix2 e (EdgeMlp.hi64 d)) rfl rfl (ix2 e d)
    (fun b => match b with | ⟨0, _⟩ => fun _ => rfl | ⟨1, _⟩ => fun h => absurd rfl h)
    (show d.val + 64 = 64 + d.val from Nat.add_comm _ _)

/-- One hidden unit of one edge, weighted: the reference's product of the concatenated pair with W1 splits into the two
    half products (a sum over 128 rows is the sum over the upper 64 plus the sum over the lower 64), the halves read the
    source and the target node, and the bias, the rectifier and the output weight are the network's own. -/
private theorem hid_apply (x0 : FVec Ideal S16x128x64 .f32) (x2 : FVec Ideal S128x256 .f32) (x3 : FVec Ideal S256 .f32)
    (x4 : FVec Ideal S256x1 .f32) (t : Fin 16) (i : Fin 128) (k : Fin 127) (h : Fin 256) :
    val_main_v48 (F := Ideal) x0 x2 x3 (ix2 (eno t i k) h) * x4 (ix2 h (0 : Fin 1))
      = EdgeMlp.hid x0 x2 x3 x4 t i (EdgeMlp.col i k) h := by
  rw [val_main_v48_apply, val_main_v47_apply, val_main_v44_apply, val_main_call0_v0_apply, val_main_call0_cst_apply,
    val_main_v46_apply, val_main_v45_apply, EdgeMlp.sum_halves64]
  unfold EdgeMlp.hid
  have hl : ∀ c : Fin 128, lidx_main_v44 (ix2 (eno t i k) h) c = ix2 (eno t i k) c := fun c => by
    funext a; match a with | ⟨0, _⟩ => rfl | ⟨1, _⟩ => rfl
  have hr : ∀ c : Fin 128, ridx_main_v44 (ix2 (eno t i k) h) c = ix2 c h := fun c => by
    funext a; match a with | ⟨0, _⟩ => rfl | ⟨1, _⟩ => rfl
  have hb : idx_main_v45 (idx_main_v46 (ix2 (eno t i k) h)) = ix1 h := by
    funext a; match a with | ⟨0, _⟩ => rfl
  simp only [hl, hr, hb, pair_lo, pair_hi, src_apply, tgt_apply]
  rfl

/-- The reference at the result index (t, i, k). -/
private theorem ref_at (x0 : FVec Ideal S16x128x64 .f32) (x2 : FVec Ideal S128x256 .f32) (x3 : FVec Ideal S256 .f32)
    (x4 : FVec Ideal S256x1 .f32) (x5 : FVec Ideal S1 .f32) (t : Fin 16) (i : Fin 128) (k : Fin 127) :
    val_main_v53 (F := Ideal) x0 x2 x3 x4 x5 (ix3 t i k) = EdgeMlp.G x0 x2 x3 x4 x5 (ix3 t i k) := by
  rw [val_main_v53_apply, val_main_v52_apply, val_main_v49_apply, val_main_v51_apply, val_main_v50_apply]
  have hL : ∀ h : Fin 256, lidx_main_v49 (idx_main_v53 (ix3 t i k)) h = ix2 (eno t i k) h := fun h => by
    funext a; match a with | ⟨0, _⟩ => exact Fin.ext (Nat.div_one _) | ⟨1, _⟩ => rfl
  have hR : ∀ h : Fin 256, ridx_main_v49 (idx_main_v53 (ix3 t i k)) h = ix2 h (0 : Fin 1) := fun h => by
    funext a; match a with | ⟨0, _⟩ => rfl | ⟨1, _⟩ => rfl
  have hB : idx_main_v50 (idx_main_v51 (idx_main_v53 (ix3 t i k))) = ix1 (0 : Fin 1) := by
    funext a; match a with | ⟨0, _⟩ => rfl
  simp only [hL, hR, hB]
  show (∑ h : Fin 256, val_main_v48 (F := Ideal) x0 x2 x3 (ix2 (eno t i k) h) * x4 (ix2 h (0 : Fin 1))) + x5 (ix1 (0 : Fin 1))
    = (∑ h : Fin 256, EdgeMlp.hid x0 x2 x3 x4 t i (EdgeMlp.col i k) h) + x5 (ix1 (0 : Fin 1))
  congr 1
  exact Finset.sum_congr rfl (fun h _ => hid_apply x0 x2 x3 x4 t i k h)

/-- The reference's result, read one operation at a time, is the edge network of the argument arrays. -/
theorem ref_eq (x0 : FVec Ideal S16x128x64 .f32) (x2 : FVec Ideal S128x256 .f32) (x3 : FVec Ideal S256 .f32)
    (x4 : FVec Ideal S256x1 .f32) (x5 : FVec Ideal S1 .f32) :
    val_main_v53 (F := Ideal) x0 x2 x3 x4 x5 = EdgeMlp.G x0 x2 x3 x4 x5 := by
  funext o
  rw [eq_ix3 o]
  exact ref_at x0 x2 x3 x4 x5 (o 0) (o 1) (o 2)

end Cert.ReferenceIdeal.RefValue

end
-- ==== Proof.lean ====
/-
  The certificate's claims, assembled.

  Both programs compute, for every time step t and every ordered pair of distinct nodes (i, j), the edge value
      ( ∑ h < 256, max( (∑ d < 64, x[t,i,d] · W1[d,h] + ∑ d < 64, x[t,j,d] · W1[64+d,h]) + b1[h], 0 ) · W2[h,0] ) + b2[0]
  over the extended reals (Proof/Spec.lean).  The kernel's region accumulates it for ALL pairs, two tiles of 128
  hidden units one after the other from zero, and the host lines after the region drop the diagonal
  (Proof/KernValue.lean over Proof/KernFinal.lean and Proof/KernTail.lean); the reference gathers the two node vectors of
  every edge, concatenates them and multiplies by the whole of W1, which is the sum of the two half products
  (Proof/RefValue.lean).  Only re-associations of finite sums in a commutative monoid join the two sides, so the
  precondition is not used.  The three frames are the programs' runs with the result dropped; the idealization
  rewrote no operation, so nothing is owed for it.
-/
import proofs.«127992_j39195871543399_1_alg».proof.Defs
import proofs.«127992_j39195871543399_1_alg».proof.Proof.Gen.Kernel
import proofs.«127992_j39195871543399_1_alg».proof.Proof.Gen.Kernel.Skeleton
import proofs.«127992_j39195871543399_1_alg».proof.Proof.Gen.Kernel.Launch
import proofs.«127992_j39195871543399_1_alg».proof.Proof.Gen.Kernel.Points
import proofs.«127992_j39195871543399_1_alg».proof.Proof.Gen.Kernel.Frame
import proofs.«127992_j39195871543399_1_alg».proof.Proof.Gen.KernelIdeal
import proofs.«127992_j39195871543399_1_alg».proof.Proof.Gen.KernelIdeal.Skeleton
import proofs.«127992_j39195871543399_1_alg».proof.Proof.Gen.KernelIdeal.Launch
import proofs.«127992_j39195871543399_1_alg».proof.Proof.Gen.KernelIdeal.Points
import proofs.«127992_j39195871543399_1_alg».proof.Proof.Gen.KernelIdeal.Frame
import proofs.«127992_j39195871543399_1_alg».proof.Proof.Gen.ReferenceIdeal
import proofs.«127992_j39195871543399_1_alg».proof.Proof.Gen.ReferenceIdeal.Run
import proofs.«127992_j39195871543399_1_alg».proof.Proof.Gen.ReferenceIdeal.Read
import proofs.«127992_j39195871543399_1_alg».proof.Proof.Gen.Pre_finite_inputs
import proofs.«127992_j39195871543399_1_alg».proof.Proof.KernValue
import proofs.«127992_j39195871543399_1_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's both end at the edge network of the
    arguments without the diagonal: one function of the argument arrays. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.ReferenceIdeal.RefValue.ref_eq,
    (hagree c).1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
